-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S100000 : Shape := ⟨1, ![100000]⟩
abbrev S128x16 : Shape := ⟨2, ![128, 16]⟩
abbrev S16x16 : Shape := ⟨2, ![16, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S128x16 : S_.BroadcastsInDim S128x16 (![] : Fin 0 → Fin S128x16.rank)
  reducesTo_S128x16_S_d0_1 : S128x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_
  bcast_S_S100000x1 : S_.BroadcastsInDim S100000x1 (![] : Fin 0 → Fin S100000x1.rank)
  reducesTo_S100000x1_S_d0_1 : S100000x1.ReducesTo [0, 1] S_

variable [Facts]

def fn_part2 {F : FTy → Type} [FloatOps F] (main_arg0 : IVec S100000x1 32) (main_v33 : IVec S_ 1) : IVec S_ 1 :=
  let main_c_12 : IVec S_ 32 := constantI S_ 32 128#32
  let main_v34 : IVec S100000x1 32 := broadcastInDim S100000x1 ![] bcast_S_S100000x1 main_c_12
  let main_v35 : IVec S100000x1 1 := cmpi .slt main_arg0 main_v34
  let main_c_13 : IVec S_ 1 := constantI S_ 1 1#1
  let main_v36 : IVec S_ 1 := (fun x v => Host.reduce IntOp.andi x v reducesTo_S100000x1_S_d0_1 h_S_) main_v35 main_c_13
  let main_v37 : IVec S_ 1 := andi main_v33 main_v36
  let main_c_14 : IVec S_ 32 := constantI S_ 32 0#32
  let main_v38 : IVec S100000x1 32 := broadcastInDim S100000x1 ![] bcast_S_S100000x1 main_c_14
  let main_v39 : IVec S100000x1 1 := cmpi .sge main_arg0 main_v38
  let main_c_15 : IVec S_ 1 := constantI S_ 1 1#1
  let main_v40 : IVec S_ 1 := (fun x v => Host.reduce IntOp.andi x v reducesTo_S100000x1_S_d0_1 h_S_) main_v39 main_c_15
  let main_v41 : IVec S_ 1 := andi main_v37 main_v40
  main_v41

def fn_part1 {F : FTy → Type} [FloatOps F] (main_arg0 : IVec S100000x1 32) (main_arg7 : FVec F S16 .f32) (main_arg8 : FVec F S16x10 .f32) (main_arg9 : FVec F S10 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg7
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x10 .f32 := Host.absf main_arg8
  let main_cst_8 : FVec F S_ .f32 := constant S_ .f32 0x7F800000#32
  let main_v25 : FVec F S16x10 .f32 := broadcastInDim S16x10 ![] bcast_S_S16x10 main_cst_8
  let main_v26 : IVec S16x10 1 := cmpf .olt main_v24 main_v25
  let main_c_9 : IVec S_ 1 := constantI S_ 1 1#1
  let main_v27 : IVec S_ 1 := (fun x v => Host.reduce IntOp.andi x v reducesTo_S16x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg0 main_v33

def fn {F : FTy → Type} [FloatOps F] (main_arg0 : IVec S100000x1 32) (main_arg1 : IVec S2x3200000 32) (main_arg2 : IVec S100000 32) (main_arg3 : FVec F S128x16 .f32) (main_arg4 : FVec F S16x16 .f32) (main_arg5 : FVec F S16 .f32) (main_arg6 : FVec F S16x16 .f32) (main_arg7 : FVec F S16 .f32) (main_arg8 : FVec F S16x10 .f32) (main_arg9 : FVec F S10 .f32) : IVec S_ 1 :=
  let main_v0 : FVec F S128x16 .f32 := Host.absf main_arg3
  let main_cst : FVec F S_ .f32 := constant S_ .f32 0x7F800000#32
  let main_v1 : FVec F S128x16 .f32 := broadcastInDim S128x16 ![] bcast_S_S128x16 main_cst
  let main_v2 : IVec S128x16 1 := cmpf .olt main_v0 main_v1
  let main_c : IVec S_ 1 := constantI S_ 1 1#1
  let main_v3 : IVec S_ 1 := (fun x v => Host.reduce IntOp.andi x v reducesTo_S128x16_S_d0_1 h_S_) main_v2 main_c
  let main_v4 : FVec F S16x16 .f32 := Host.absf main_arg4
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg6
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg0 main_arg7 main_arg8 main_arg9 main_v13 main_v16
-- ==== Kernel.lean ====
abbrev S100000x1 : Shape := ⟨2, ![100000, 1]⟩
abbrev S2x3200000 : Shape := ⟨2, ![2, 3200000]⟩
abbrev S100000 : Shape := ⟨1, ![100000]⟩
abbrev S128x16 : Shape := ⟨2, ![128, 16]⟩
abbrev S16x16 : Shape := ⟨2, ![16, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x1 : Shape := ⟨2, ![10000, 1]⟩
abbrev S10000x16 : Shape := ⟨2, ![10000, 16]⟩
abbrev S10000x128 : Shape := ⟨2, ![10000, 128]⟩
abbrev S3300000x16 : Shape := ⟨2, ![3300000, 16]⟩
abbrev S1x16 : Shape := ⟨2, ![1, 16]⟩
abbrev S512x16 : Shape := ⟨2, ![512, 16]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 106
  | .vmem => 20
  | .smem => 0
  | _ => 0

abbrev bufTy : (tb : Table) → Fin (tcTables nBuf tb) → BufTy
  | .hbm, ⟨0, _⟩ => ⟨S100000x1, .i32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x10, .f32⟩
  | .hbm, ⟨9, _⟩ => ⟨S10, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S128x16, .f32⟩
  | .hbm, ⟨51, _⟩ => ⟨S100000x16, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x16, .f32⟩
  | .hbm, ⟨61, _⟩ => ⟨S3300000x1, .f32⟩
  | .hbm, ⟨62, _⟩ => ⟨S3300000x16, .f32⟩
  | .hbm, ⟨63, _⟩ => ⟨S3300000x16, .f32⟩
  | .hbm, ⟨64, _⟩ => ⟨S_, .f32⟩
  | .hbm, ⟨65, _⟩ => ⟨S100000x16, .f32⟩
  | .hbm, ⟨66, _⟩ => ⟨S3300000x1, .i32⟩
  | .hbm, ⟨67, _⟩ => ⟨S100000x16, .f32⟩
  | .hbm, ⟨68, _⟩ => ⟨S1x16, .f32⟩
  | .hbm, ⟨69, _⟩ => ⟨S100000x16, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x16, .f32⟩
  | .hbm, ⟨79, _⟩ => ⟨S3300000x1, .f32⟩
  | .hbm, ⟨80, _⟩ => ⟨S3300000x16, .f32⟩
  | .hbm, ⟨81, _⟩ => ⟨S3300000x16, .f32⟩
  | .hbm, ⟨82, _⟩ => ⟨S_, .f32⟩
  | .hbm, ⟨83, _⟩ => ⟨S100000x16, .f32⟩
  | .hbm, ⟨84, _⟩ => ⟨S3300000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S_, .f32⟩
  | .hbm, ⟨89, _⟩ => ⟨S512x16, .f32⟩
  | .hbm, ⟨90, _⟩ => ⟨S100000x1, .i32⟩
  | .hbm, ⟨91, _⟩ => ⟨S512x16, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S512, .f32⟩
  | .hbm, ⟨96, _⟩ => ⟨S100000x1, .i32⟩
  | .hbm, ⟨97, _⟩ => ⟨S512, .f32⟩
  | .hbm, ⟨98, _⟩ => ⟨S_, .f32⟩
  | .hbm, ⟨99, _⟩ => ⟨S512, .f32⟩
  | .hbm, ⟨100, _⟩ => ⟨S512, .f32⟩
  | .hbm, ⟨101, _⟩ => ⟨S512x1, .f32⟩
  | .hbm, ⟨102, _⟩ => ⟨S512x16, .f32⟩
  | .hbm, ⟨103, _⟩ => ⟨S512x16, .f32⟩
  | .hbm, ⟨104, _⟩ => ⟨S1x10, .f32⟩
  | .hbm, ⟨105, _⟩ => ⟨S512x10, .f32⟩
  | .local _ .vmem, ⟨0, _⟩ => ⟨S10000x1, .i32⟩
  | .local _ .vmem, ⟨1, _⟩ => ⟨S10000x1, .i32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S10000x16, .f32⟩
  | .local _ .vmem, ⟨15, _⟩ => ⟨S10000x16, .f32⟩
  | .local _ .vmem, ⟨16, _⟩ => ⟨S512x16, .f32⟩
  | .local _ .vmem, ⟨17, _⟩ => ⟨S16x10, .f32⟩
  | .local _ .vmem, ⟨18, _⟩ => ⟨S1x10, .f32⟩
  | .local _ .vmem, ⟨19, _⟩ => ⟨S512x10, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x1_S10000x1_0_0 : ∀ a, (![0, 0] : Fin 2 → Nat) a + S10000x1.size a ≤ S10000x1.size a
  h_S10000x1 : 0 < S10000x1.numel
  iota_S10000x128_d1_w32 : S10000x128.Iotas .tc 32 [1]
  broadcasts_S10000x1_S10000x128 : S10000x1.Broadcasts S10000x128
  natLt_1_32 : 1 < 32
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  bcast_S_S512x16 : S_.BroadcastsInDim S512x16 (![] : Fin 0 → Fin S512x16.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  bcast_S10_S1x10_1 : S10.BroadcastsInDim S1x10 (![1] : Fin 1 → Fin S1x10.rank)
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S128x16_S16x16_S128x16_1_0_0_1_n_n_wf : DotDims.WF S128x16 S16x16 S128x16 [1] [0] [0] [1] [] []
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  scatter_S512x16_S100000x1_S100000x16_1_0_0_1_wf : ScatterDims.WF S512x16 S100000x1 S100000x16 [1] [0] [0] 1
  scatter_S512_S100000x1_S100000_n_0_0_1_wf : ScatterDims.WF S512 S100000x1 S100000 [] [0] [0] 1
  dot_S512x16_S16x10_S512x10_1_0_0_1_n_n_wf : DotDims.WF S512x16 S16x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .i32 = 32 ∨ (Rect.block (s := S100000x1) S10000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x16.size a ≤ S512x16.size a
  hwx3_0 : ∀ i : grid3.Coords, EltTy.bits .f32 = 32 ∨ (Rect.block (s := S512x16) S512x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x10.size a ≤ S16x10.size a
  hwx3_1 : ∀ i : grid3.Coords, EltTy.bits .f32 = 32 ∨ (Rect.block (s := S16x10) S16x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x10.size a ≤ S512x10.size a
  hwx3_3 : ∀ i : grid3.Coords, EltTy.bits .f32 = 32 ∨ (Rect.block (s := S512x10) S512x10.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S128x16_S16x16_S128x16_1_0_0_1_n_n : DotDims S128x16 S16x16 S128x16 where
  lhsContracting := [1]
  rhsContracting := [0]
  lhsNonContracting := [0]
  rhsNonContracting := [1]
  lhsBatch := []
  rhsBatch := []
  wf := dot_S128x16_S16x16_S128x16_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x16_S16x10_S512x10_1_0_0_1_n_n : DotDims S512x16 S16x10 S512x10 where
  lhsContracting := [1]
  rhsContracting := [0]
  lhsNonContracting := [0]
  rhsNonContracting := [1]
  lhsBatch := []
  rhsBatch := []
  wf := dot_S512x16_S16x10_S512x10_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S512x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S16x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S512x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S100000 : Shape := ⟨1, ![100000]⟩
abbrev S128x16 : Shape := ⟨2, ![128, 16]⟩
abbrev S16x16 : Shape := ⟨2, ![16, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S512x16 : Shape := ⟨2, ![512, 16]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 126
  | .vmem => 0
  | .smem => 0
  | _ => 0

abbrev bufTy : (tb : Table) → Fin (tcTables nBuf tb) → BufTy
  | .hbm, ⟨0, _⟩ => ⟨S100000x1, .i32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x10, .f32⟩
  | .hbm, ⟨9, _⟩ => ⟨S10, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000, .i32⟩
  | .hbm, ⟨51, _⟩ => ⟨S_, .i32⟩
  | .hbm, ⟨52, _⟩ => ⟨S100000, .i32⟩
  | .hbm, ⟨53, _⟩ => ⟨S100000, .i1⟩
  | .hbm, ⟨54, _⟩ => ⟨S_, .i32⟩
  | .hbm, ⟨55, _⟩ => ⟨S100000, .i32⟩
  | .hbm, ⟨56, _⟩ => ⟨S100000, .i32⟩
  | .hbm, ⟨57, _⟩ => ⟨S100000, .i32⟩
  | .hbm, ⟨58, _⟩ => ⟨S100000x1, .i32⟩
  | .hbm, ⟨59, _⟩ => ⟨S100000x16, .f32⟩
  | .hbm, ⟨60, _⟩ => ⟨S100000x16, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x16, .f32⟩
  | .hbm, ⟨70, _⟩ => ⟨S3300000x1, .f32⟩
  | .hbm, ⟨71, _⟩ => ⟨S3300000x16, .f32⟩
  | .hbm, ⟨72, _⟩ => ⟨S3300000x16, .f32⟩
  | .hbm, ⟨73, _⟩ => ⟨S_, .f32⟩
  | .hbm, ⟨74, _⟩ => ⟨S100000x16, .f32⟩
  | .hbm, ⟨75, _⟩ => ⟨S3300000x1, .i32⟩
  | .hbm, ⟨76, _⟩ => ⟨S100000x16, .f32⟩
  | .hbm, ⟨77, _⟩ => ⟨S1x16, .f32⟩
  | .hbm, ⟨78, _⟩ => ⟨S100000x16, .f32⟩
  | .hbm, ⟨79, _⟩ => ⟨S100000x16, .f32⟩
  | .hbm, ⟨80, _⟩ => ⟨S_, .f32⟩
  | .hbm, ⟨81, _⟩ => ⟨S100000x16, .f32⟩
  | .hbm, ⟨82, _⟩ => ⟨S100000x16, .f32⟩
  | .hbm, ⟨83, _⟩ => ⟨S100000x16, .f32⟩
  | .hbm, ⟨84, _⟩ => ⟨S_, .i32⟩
  | .hbm, ⟨85, _⟩ => ⟨S3300000, .i32⟩
  | .hbm, ⟨86, _⟩ => ⟨S3300000, .i1⟩
  | .hbm, ⟨87, _⟩ => ⟨S_, .i32⟩
  | .hbm, ⟨88, _⟩ => ⟨S3300000, .i32⟩
  | .hbm, ⟨89, _⟩ => ⟨S3300000, .i32⟩
  | .hbm, ⟨90, _⟩ => ⟨S3300000, .i32⟩
  | .hbm, ⟨91, _⟩ => ⟨S3300000x1, .i32⟩
  | .hbm, ⟨92, _⟩ => ⟨S3300000x16, .f32⟩
  | .hbm, ⟨93, _⟩ => ⟨S3300000x1, .f32⟩
  | .hbm, ⟨94, _⟩ => ⟨S3300000x16, .f32⟩
  | .hbm, ⟨95, _⟩ => ⟨S3300000x16, .f32⟩
  | .hbm, ⟨96, _⟩ => ⟨S_, .f32⟩
  | .hbm, ⟨97, _⟩ => ⟨S100000x16, .f32⟩
  | .hbm, ⟨98, _⟩ => ⟨S3300000x1, .i32⟩
  | .hbm, ⟨99, _⟩ => ⟨S100000x16, .f32⟩
  | .hbm, ⟨100, _⟩ => ⟨S1x16, .f32⟩
  | .hbm, ⟨101, _⟩ => ⟨S100000x16, .f32⟩
  | .hbm, ⟨102, _⟩ => ⟨S100000x16, .f32⟩
  | .hbm, ⟨103, _⟩ => ⟨S_, .f32⟩
  | .hbm, ⟨104, _⟩ => ⟨S100000x16, .f32⟩
  | .hbm, ⟨105, _⟩ => ⟨S100000x16, .f32⟩
  | .hbm, ⟨106, _⟩ => ⟨S_, .f32⟩
  | .hbm, ⟨107, _⟩ => ⟨S512x16, .f32⟩
  | .hbm, ⟨108, _⟩ => ⟨S100000x1, .i32⟩
  | .hbm, ⟨109, _⟩ => ⟨S512x16, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S512, .f32⟩
  | .hbm, ⟨114, _⟩ => ⟨S100000x1, .i32⟩
  | .hbm, ⟨115, _⟩ => ⟨S512, .f32⟩
  | .hbm, ⟨116, _⟩ => ⟨S_, .f32⟩
  | .hbm, ⟨117, _⟩ => ⟨S512, .f32⟩
  | .hbm, ⟨118, _⟩ => ⟨S512, .f32⟩
  | .hbm, ⟨119, _⟩ => ⟨S512x1, .f32⟩
  | .hbm, ⟨120, _⟩ => ⟨S512x16, .f32⟩
  | .hbm, ⟨121, _⟩ => ⟨S512x16, .f32⟩
  | .hbm, ⟨122, _⟩ => ⟨S512x10, .f32⟩
  | .hbm, ⟨123, _⟩ => ⟨S1x10, .f32⟩
  | .hbm, ⟨124, _⟩ => ⟨S512x10, .f32⟩
  | .hbm, ⟨125, _⟩ => ⟨S512x10, .f32⟩
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_call2_cst : Ref sig .tc := ⟨.hbm, 103, rfl⟩
abbrev main_call2_v0 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_cst_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000x1_S100000 : S100000x1.ShapeCasts S100000
  bcast_S100000_S100000x1_0 : S100000.BroadcastsInDim S100000x1 (![0] : Fin 1 → Fin S100000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S512x16 : S_.BroadcastsInDim S512x16 (![] : Fin 0 → Fin S512x16.rank)
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S128x16_S100000x1_S100000x16_1_0_n_n_0_1_116_wf : GatherDims.WF S128x16 S100000x1 S100000x16 [1] [0] [] [0] [] 1 ![1, 16]
  dot_S100000x16_S16x16_S100000x16_1_0_0_1_n_n_wf : DotDims.WF S100000x16 S16x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  scatter_S512x16_S100000x1_S100000x16_1_0_0_1_wf : ScatterDims.WF S512x16 S100000x1 S100000x16 [1] [0] [0] 1
  scatter_S512_S100000x1_S100000_n_0_0_1_wf : ScatterDims.WF S512 S100000x1 S100000 [] [0] [0] 1
  dot_S512x16_S16x10_S512x10_1_0_0_1_n_n_wf : DotDims.WF S512x16 S16x10 S512x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S128x16_S100000x1_S100000x16_1_0_n_n_0_1_116 : GatherDims S128x16 S100000x1 S100000x16 where
  offsetDims := [1]
  collapsedSliceDims := [0]
  operandBatchingDims := []
  startIndicesBatchingDims := []
  startIndexMap := [0]
  indexVectorDim := 1
  sliceSizes := ![1, 16]
  wf := gather_S128x16_S100000x1_S100000x16_1_0_n_n_0_1_116_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x16_S16x10_S512x10_1_0_0_1_n_n : DotDims S512x16 S16x10 S512x10 where
  lhsContracting := [1]
  rhsContracting := [0]
  lhsNonContracting := [0]
  rhsNonContracting := [1]
  lhsBatch := []
  rhsBatch := []
  wf := dot_S512x16_S16x10_S512x10_1_0_0_1_n_n_wf

class Facts : Prop extends Facts₀ where

variable [Facts]
-- ==== Proof.Spec.lean ====
/-
  The whole-array functions of a two-layer graph convolution with mean pooling, over the extended reals.

  Node n carries a vocabulary id x[n]; E is a 128-row table; the first linear layer's output row n is row x[n] of
  E, written here as the product of the one-hot row of x[n] with E (`embedRows`). The other three node- and
  graph-level stages are stated as the host operations that compute them: relu(A + b) · W (`reluLinear`),
  relu(A + b) (`reluBias`), and P · W + b (`classify`), each bias a [1, ·] row broadcast down the rows.
-/
import proofs.«408285_j86543591014450_2_alg».proof.Proof.Gen.KernelIdeal
import proofs.«408285_j86543591014450_2_alg».proof.Proof.Gen.ReferenceIdeal
import Idealize.ShloMosaic.PureOps.Ideal
import Idealize.ShloMosaic.Lib.ValueIdx

noncomputable section

namespace Cert.Gcn

open Idealize.ShloMosaic Idealize.ShloMosaic.ValueIdx
open Cert.ReferenceIdeal Cert.ReferenceIdeal.Facts₀

/-- Every node's id lies in the table: 0 ≤ x[n] < 128 as a signed integer. -/
def InVocab (x : IVec S100000x1 32) : Prop :=
  ∀ n : Fin 100000, 0 ≤ (x (ix2 n (0 : Fin 1))).toInt ∧ (x (ix2 n (0 : Fin 1))).toInt < 128

/-- (onehot(x) · E)[n, j] = Σ_v [x[n] = v] · E[v, j]: the weight of table row v in output row n is 1 when the
    node's id is v and 0 otherwise. -/
def embedRows (x : IVec S100000x1 32) (E : FVec Ideal S128x16 .f32) : FVec Ideal S100000x16 .f32 :=
  fun i => ∑ v : Fin 128,
    (if x (ix2 (⟨(i 0).val, (i 0).isLt⟩ : Fin 100000) (0 : Fin 1)) = BitVec.ofNat 32 v.val then (1 : EReal) else 0)
      * E (ix2 v (⟨(i 1).val, (i 1).isLt⟩ : Fin 16))

/-- The table's rows looked up by id, then the linear layer: (E[x'])· W, where x' is x with a negative id moved up by the
    table's 128 rows (the indexing convention) and the lookup is a row gather, which clamps an id outside the table. -/
def embedLookup (x : IVec S100000x1 32) (E : FVec Ideal S128x16 .f32) (W : FVec Ideal S16x16 .f32) :
    FVec Ideal S100000x16 .f32 :=
  Host.dotGeneral dot_S100000x16_S16x16_S100000x16_1_0_0_1_n_n none
    (Host.gather gather_S128x16_S100000x1_S100000x16_1_0_n_n_0_1_116 E
      (broadcastInDim S100000x1 ![0] bcast_S100000_S100000x1_0
        (select (cmpi .slt (shapeCast _ x shapeCasts_S100000x1_S100000) (broadcastInDim S100000 ![] bcast_S_S100000 (constantI S_ 32 0#32)))
          (addi (shapeCast _ x shapeCasts_S100000x1_S100000) (broadcastInDim S100000 ![] bcast_S_S100000 (constantI S_ 32 128#32)))
          (shapeCast _ x shapeCasts_S100000x1_S100000)))) W

/-- relu(A + b) · W, the bias a [1, 16] row. -/
def reluLinear (A : FVec Ideal S100000x16 .f32) (b : FVec Ideal S1x16 .f32) (W : FVec Ideal S16x16 .f32) :
    FVec Ideal S100000x16 .f32 :=
  Host.dotGeneral dot_S100000x16_S16x16_S100000x16_1_0_0_1_n_n none
    (maximumf (addf A (broadcastInDim S100000x16 ![0, 1] bcast_S1x16_S100000x16_0_1 b))
      (broadcastInDim S100000x16 ![] bcast_S_S100000x16 (constant S_ .f32 0x00000000#32))) W

/-- relu(A + b), the bias a [1, 16] row. -/
def reluBias (A : FVec Ideal S100000x16 .f32) (b : FVec Ideal S1x16 .f32) : FVec Ideal S100000x16 .f32 :=
  maximumf (addf A (broadcastInDim S100000x16 ![0, 1] bcast_S1x16_S100000x16_0_1 b))
    (broadcastInDim S100000x16 ![] bcast_S_S100000x16 (constant S_ .f32 0x00000000#32))

/-- P · W + b, the bias a [1, 10] row. -/
def classify (P : FVec Ideal S512x16 .f32) (W : FVec Ideal S16x10 .f32) (b : FVec Ideal S1x10 .f32) :
    FVec Ideal S512x10 .f32 :=
  addf (Host.dotGeneral dot_S512x16_S16x10_S512x10_1_0_0_1_n_n none P W)
    (broadcastInDim S512x10 ![0, 1] bcast_S1x10_S512x10_0_1 b)

end Cert.Gcn

end
-- ==== Proof.Layers.lean ====
/-
  The two programs' shared stages as whole-array functions, and the reference read as their composition.

  One graph convolution aggregates, for every edge (s, d) of the edge list extended by the self loops, the message
  H[s] · norm(s, d) into row d (`aggregate`): a row gather of H at the sources, a product with the edge's
  normalisation broadcast along the 16 features, and a scatter-add into the destinations. The readout divides each
  graph's sum of node rows by its node count, at least 1 (`meanPool`). Both programs compute the sources, the
  destinations, the normalisation and the counts from the edge list and the graph ids alone, by the same host
  operations, so those are carried here as the reference's own stages and never opened.
  The reference is then: classify ∘ meanPool ∘ reluBias ∘ aggregate ∘ reluLinear ∘ aggregate ∘ embedLookup.
-/
import proofs.«408285_j86543591014450_2_alg».proof.Proof.Spec
import proofs.«408285_j86543591014450_2_alg».proof.Proof.RefRead

noncomputable section

namespace Cert.Gcn

open Idealize.ShloMosaic
open Cert.ReferenceIdeal Cert.ReferenceIdeal.Facts₀ Cert.ReferenceIdeal.ReadP

/-- Messages H[src] · norm summed into their destination rows, over the edge list x1 with its self loops. -/
def aggregate (x1 : IVec S2x3200000 32) (H : FVec Ideal S100000x16 .f32) : FVec Ideal S100000x16 .f32 :=
  Host.scatterAdd scatter_S100000x16_S3300000x1_S3300000x16_1_0_0_1 (val_main_v49 (F := Ideal)) (val_main_v50 (F := Ideal) x1)
    (mulf (Host.gather gather_S100000x16_S3300000x1_S3300000x16_1_0_n_n_0_1_116 H (val_main_v44 (F := Ideal) x1)) (val_main_v47 (F := Ideal) x1))

/-- Each graph's sum of its nodes' rows over its node count (at least 1), the graph ids x2. -/
def meanPool (x2 : IVec S100000 32) (H : FVec Ideal S100000x16 .f32) : FVec Ideal S512x16 .f32 :=
  Host.divf (Host.scatterAdd scatter_S512x16_S100000x1_S100000x16_1_0_0_1 (val_main_v74 (F := Ideal)) (val_main_v75 (F := Ideal) x2) H)
    (val_main_v84 (F := Ideal) x2)

variable (x0 : IVec S100000x1 32) (x1 : IVec S2x3200000 32) (x2 : IVec S100000 32) (x3 : FVec Ideal S128x16 .f32)
  (x4 : FVec Ideal S16x16 .f32) (x5 : FVec Ideal S16 .f32) (x6 : FVec Ideal S16x16 .f32) (x7 : FVec Ideal S16 .f32)
  (x8 : FVec Ideal S16x10 .f32) (x9 : FVec Ideal S10 .f32)

/-- The first layer's linear output: the looked-up rows times W1. -/
theorem ref_hw1 : val_main_v38 (F := Ideal) x0 x3 x4 = embedLookup x0 x3 x4 := rfl
/-- The first aggregation. -/
theorem ref_agg1 : val_main_v51 (F := Ideal) x0 x1 x3 x4 = aggregate x1 (val_main_v38 (F := Ideal) x0 x3 x4) := rfl
/-- The second layer's linear output. -/
theorem ref_hw2 : val_main_v56 (F := Ideal) x0 x1 x3 x4 x5 x6
    = reluLinear (val_main_v51 (F := Ideal) x0 x1 x3 x4) (val_main_v52 (F := Ideal) x5) x6 := rfl
/-- The second aggregation: the same edges, sources, destinations and normalisation as the first. -/
theorem ref_agg2 : val_main_v69 (F := Ideal) x0 x1 x3 x4 x5 x6 = aggregate x1 (val_main_v56 (F := Ideal) x0 x1 x3 x4 x5 x6) := rfl
/-- The node features after the second layer. -/
theorem ref_h2 : val_main_v73 (F := Ideal) x0 x1 x3 x4 x5 x6 x7
    = reluBias (val_main_v69 (F := Ideal) x0 x1 x3 x4 x5 x6) (val_main_v70 (F := Ideal) x7) := rfl
/-- The pooled graph features. -/
theorem ref_pool : val_main_v85 (F := Ideal) x0 x1 x2 x3 x4 x5 x6 x7 = meanPool x2 (val_main_v73 (F := Ideal) x0 x1 x3 x4 x5 x6 x7) := rfl
/-- The logits. -/
theorem ref_logits : val_main_v89 (F := Ideal) x0 x1 x2 x3 x4 x5 x6 x7 x8 x9
    = classify (val_main_v85 (F := Ideal) x0 x1 x2 x3 x4 x5 x6 x7) x8 (val_main_v87 (F := Ideal) x9) := rfl

/-- THE REFERENCE: its result as the composition of the stages. -/
theorem ref_value : val_main_v89 (F := Ideal) x0 x1 x2 x3 x4 x5 x6 x7 x8 x9
    = classify (meanPool x2 (reluBias (aggregate x1 (reluLinear (aggregate x1 (embedLookup x0 x3 x4))
        (val_main_v52 (F := Ideal) x5) x6)) (val_main_v70 (F := Ideal) x7))) x8 (val_main_v87 (F := Ideal) x9) := by
  rw [ref_logits, ref_pool, ref_h2, ref_agg2, ref_hw2, ref_agg1, ref_hw1]

end Cert.Gcn

end
-- ==== Proof.KHost.lean ====
/-
  The kernel program's host operations before the first launch, read as the reference's own stages.

  Both programs begin with the same host operations on the edge list: the sources and the destinations are its two
  rows with every node appended (the self loops); the degree of a node counts the edges arriving at it; an edge's
  normalisation is deg(src)^(-1/2) · deg(dst)^(-1/2), zero where a degree is zero. So at the first launch the kernel
  program's buffers for the sources, the destinations and the normalisation hold exactly the reference's stages of
  the launch-time edge list. This holds for every float family, the comparison being one of operations, not values.
-/
import proofs.«408285_j86543591014450_2_alg».proof.Proof.Gen.KernelIdeal.Frame
import proofs.«408285_j86543591014450_2_alg».proof.Proof.RefRead
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F] (m : (ℓ : Loc nD τ sig) → Buf (Elt F) ℓ) (ρ : Dev nD → PrngReg)

set_option maxHeartbeats 2000000 in
/-- The edge sources: the edge list's first row, then every node (its self loop). -/
theorem src_at_W3 (c : Dev nD) : (W3 m ρ c (Proc.devRef .tc main_v3) : IVec S3300000 32)
    = val_main_v3 (F := F) (m ((c : Thread nD τ).loc main_arg1)) := by
  show StableHlo.after hostOps0_2 (W2 m ρ c) (Proc.devRef .tc main_v3) = _
  after_results
  try rfl

set_option maxHeartbeats 2000000 in
/-- The edge destinations: the edge list's second row, then every node. -/
theorem dst_at_W3 (c : Dev nD) : (W3 m ρ c (Proc.devRef .tc main_v6) : IVec S3300000 32)
    = val_main_v6 (F := F) (m ((c : Thread nD τ).loc main_arg1)) := by
  show StableHlo.after hostOps0_2 (W2 m ρ c) (Proc.devRef .tc main_v6) = _
  after_results
  try rfl

set_option maxHeartbeats 8000000 in
/-- Every edge's normalisation deg(src)^(-1/2) · deg(dst)^(-1/2), the degree counted over the destinations. -/
theorem norm_at_W3 (c : Dev nD) : (W3 m ρ c (Proc.devRef .tc main_v29) : FVec F S3300000 .f32)
    = val_main_v29 (F := F) (m ((c : Thread nD τ).loc main_arg1)) := by
  show StableHlo.after hostOps0_2 (W2 m ρ c) (Proc.devRef .tc main_v29) = _
  after_results
  try rfl

end Cert.Gcn

end
-- ==== Proof.Reg0.lean ====
/-
  The program's first kernel: one-hot rows times the table, in ten blocks of 10000 rows.

  At a grid point t the body reads rows 10000·t … 10000·t + 9999 of the id column x and the whole 128 × 16 table E, and
  stores, at (p, q) of its block, Σ_{v < 128} w(p, v) · E(v, q), where w(p, v) is the bit of x(p, 0) = v widened to a
  word and read as a signed integer: the extended real 1 when the id is v and 0 otherwise. That sum is `embedRows x E` at
  row 10000·t + p, column q. Each block is written back where the output's index map puts it (block t along the rows), and
  the ten blocks fill the 100000 × 16 array (row r lies in block r / 10000), so the array ends holding `embedRows x E`.
-/
import proofs.«408285_j86543591014450_2_alg».proof.Proof.Gen.KernelIdeal.Frame
import proofs.«408285_j86543591014450_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn

open Idealize.ShloMosaic Idealize.ShloMosaic.TcCoe Idealize.ShloMosaic.ValueIdx Idealize.SL.Sem
open Cert.KernelIdeal Cert.KernelIdeal.Gen

namespace Reg0

/-- Both offsets of every access of the body are zero. -/
theorem origin_eq_zero : (![0, 0] : Fin 2 → Nat) = fun _ => 0 := funext fun a => by fin_cases a <;> rfl

/-- The weight of one comparison: the bit of a = b, widened to a word and read as a signed integer, is the extended
    real 1 when a = b and 0 otherwise. -/
theorem onehot_weight (a b : BitVec 32) :
    (FloatOps.sitofp (F := Ideal) .f32 ((IntOp.cmpi .eq a b).setWidth 32) : EReal) = if a = b then (1 : EReal) else 0 := by
  show (((((IntOp.cmpi .eq a b).setWidth 32).toInt : ℤ) : ℝ) : EReal) = _
  by_cases h : a = b
  · rw [if_pos h]
    have e : IntOp.cmpi .eq a b = 1#1 := IntOp.cmpi_eq.mpr h
    rw [e]
    show (((1 : ℤ) : ℝ) : EReal) = 1
    rw [Int.cast_one, EReal.coe_one]
  · rw [if_neg h]
    have e : IntOp.cmpi .eq a b = 0#1 := eq_zero_of_ne_one (fun h1 => h (IntOp.cmpi_eq.mp h1))
    rw [e]
    show (((0 : ℤ) : ℝ) : EReal) = 0
    rw [Int.cast_zero, EReal.coe_zero]

/-- A [10000,1] column repeated along 128 lanes reads, at (p, v), the column's row p. -/
theorem column_lanes_apply (x : IVec S10000x1 32) (p : Fin 10000) (v : Fin 128) :
    broadcastTo S10000x128 x broadcasts_S10000x1_S10000x128 (ix2 p v) = x (ix2 p (0 : Fin 1)) :=
  broadcastTo_apply x broadcasts_S10000x1_S10000x128 (ix2 p v) (ix2 p (0 : Fin 1)) (fun a => match a with
    | ⟨0, _⟩ => by show p.val = if (10000 : Nat) = 1 then 0 else p.val; rw [if_neg (by decide)]
    | ⟨1, _⟩ => by show (0 : Nat) = if (1 : Nat) = 1 then 0 else v.val; rw [if_pos rfl])

/-- The lane numbers: the iota along axis 1 reads, at (p, v), the word of v. -/
theorem lane_number_apply (p : Fin 10000) (v : Fin 128) :
    iota .tc S10000x128 32 [1] iota_S10000x128_d1_w32 (ix2 p v) = BitVec.ofNat 32 v.val :=
  iota_single_apply .tc S10000x128 32 1 iota_S10000x128_d1_w32 (ix2 p v)

/-! The product's operand indices at output (p, q) and contraction index v are (p, v) and (v, q), axis by axis. -/
theorem lhs_onehot_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_onehot_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem rhs_onehot_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem rhs_onehot_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The body's value at (p, q): the sum over the 128 table rows v of the weight [x(p,0) = v] times E(v, q). -/
theorem payload_apply (x : IVec S10000x1 32) (E : FVec Ideal S128x16 .f32) (p : Fin 10000) (q : Fin 16) :
    k0_pay1 (F := Ideal) x E (ix2 p q)
      = ∑ v : Fin 128, (if x (ix2 p (0 : Fin 1)) = BitVec.ofNat 32 v.val then (1 : EReal) else 0) * E (ix2 v q) := by
  unfold k0_pay1
  simp only [matmul]
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 p q) ((contrEquiv1 dot_S10000x128_S128x16_S10000x16_1_0_0_1_n_n 128 rfl rfl).symm k) = ix2 p k := funext fun a => Fin.ext (by
    match a with
    | ⟨0, _⟩ => exact lhs_onehot_0 _ _
    | ⟨1, _⟩ => exact (lhs_onehot_1 _ _).trans hk)
  have er : dot_S10000x128_S128x16_S10000x16_1_0_0_1_n_n.rhsIdx (ix2 p q) ((contrEquiv1 dot_S10000x128_S128x16_S10000x16_1_0_0_1_n_n 128 rfl rfl).symm k) = ix2 k q := funext fun a => Fin.ext (by
    match a with
    | ⟨0, _⟩ => exact (rhs_onehot_0 _ _).trans hk
    | ⟨1, _⟩ => exact rhs_onehot_1 _ _)
  rw [el, er]
  rw [truncf_apply, truncf_apply, sitofp_apply, extui_apply, shapeCast_self]
  show FloatOps.sitofp (F := Ideal) .f32 ((IntOp.cmpi .eq (broadcastTo S10000x128 x broadcasts_S10000x1_S10000x128 (ix2 p k)) (iota .tc S10000x128 32 [1] iota_S10000x128_d1_w32 (ix2 p k))).setWidth 32) * E (ix2 k q) = _
  rw [column_lanes_apply, lane_number_apply, onehot_weight]

/-- A block's value against the whole-array function: when the id the block holds at row p is the array's id at
    row i 0, and the table the block holds agrees with the array's table at column i 1, the body's value at (p, q)
    is the embedded row at i. -/
theorem payload_eq_embedRows (xa : IVec S100000x1 32) (Ea : FVec Ideal S128x16 .f32) (xb : IVec S10000x1 32)
    (Eb : FVec Ideal S128x16 .f32) (i : S100000x16.Idx) (p : Fin 10000) (q : Fin 16)
    (hx : xb (ix2 p (0 : Fin 1)) = xa (ix2 (⟨(i 0).val, (i 0).isLt⟩ : Fin 100000) (0 : Fin 1)))
    (hE : ∀ v : Fin 128, Eb (ix2 v q) = Ea (ix2 v (⟨(i 1).val, (i 1).isLt⟩ : Fin 16))) :
    k0_pay1 (F := Ideal) xb Eb (ix2 p q) = embedRows xa Ea i := by
  rw [payload_apply]
  unfold embedRows
  exact Finset.sum_congr rfl fun v _ => by rw [hx, hE v]

end Reg0

variable (V : (c : Dev nD) → (b : Ref sig .tc) → Buf (Elt Ideal) ((c : Thread nD τ).loc b))

namespace Reg0

/-- The printed index maps over the ten grid points: the id column's and the output's block at point t is block t
    along the rows, the table's block is always the whole table. -/
theorem block_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the embedded rows of the arrays as the region finds them. -/
theorem flushed_eq (c : Dev nD) (t : Fin cfg0.N) :
    (dat0 V c).flushed 2 t = ((cfg0.win 2).blk t).view.read (Elt Ideal) (embedRows (V c main_arg0) (V c main_v30)) := by
  show (cfg0.win 2).cut (grid0.coords t) ((dat0 V c).after 2 t) = _
  rw [after0_2]
  unfold out0_2
  rw [View.canon_unit_zero origin_eq_zero]
  simp only [View.ld_unit_zero (S := S10000x1) origin_eq_zero, View.ld_unit_zero (S := S128x16) origin_eq_zero]
  obtain ⟨e0, e1, e2, e3, e4, e5⟩ := block_index_facts t
  funext j
  obtain ⟨p, q, rfl⟩ : ∃ (p : Fin 10000) (q : Fin 16), j = ix2 p q := ⟨j 0, j 1, eq_ix2 j⟩
  show k0_pay1 (F := Ideal) (iblk0 V c 0 t) (iblk0 V c 1 t) (ix2 p q)
    = embedRows (V c main_arg0) (V c main_v30) (((cfg0.win 2).blk t).view.emb (ix2 p q))
  refine payload_eq_embedRows (V c main_arg0) (V c main_v30) (iblk0 V c 0 t) (iblk0 V c 1 t) _ p q ?_ ?_
  · show V c main_arg0 (((cfg0.win 0).blk t).view.emb (ix2 p (0 : Fin 1))) = V c main_arg0 _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 1 + 1 * 0 = 0; omega
  · intro v
    show V c main_v30 (((cfg0.win 1).blk t).view.emb (ix2 v q)) = V c main_v30 _
    refine congrArg (V c main_v30) (funext fun a => Fin.ext ?_)
    match a with
    | ⟨0, _⟩ => show win0_1.index t (0 : Fin 2) * 128 + 1 * v.val = v.val; omega
    | ⟨1, _⟩ => show win0_1.index t (1 : Fin 2) * 16 + 1 * q.val = win0_2.index t (1 : Fin 2) * 16 + 1 * q.val; omega

/-- A row-column index is in point t's block iff each coordinate is in the block's range on its axis. -/
theorem mem_block_iff (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v31).slice (win0_2.rect t)).set ↔ _
  rw [View.set_slice_whole, Rect.mem_set_unit]
  exact Iff.rfl

/-- The ten blocks of 10000 rows fill the array: row r is in the block of point r / 10000. -/
theorem rows_covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 10 := N_0
  obtain ⟨t, ht⟩ : ∃ t : Fin cfg0.N, t.val = (i 0).val / 10000 :=
    ⟨⟨(i 0).val / 10000, by show (i 0).val / 10000 < grid0.N; omega⟩, rfl⟩
  obtain ⟨-, -, -, -, e4, e5⟩ := block_index_facts t
  refine ⟨t, flush0_2 t, ?_⟩
  rw [mem_block_iff]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

end Reg0

/-- The output array after the ten write-backs is the embedded rows of the id column and the table as the region
    finds them. -/
theorem region0_value (c : Dev nD) :
    (dat0 V c).arrAt 2 cfg0.N = embedRows (V c main_arg0) (V c main_v30) :=
  (dat0 V c).arrAt_eq_of_cover 2 (embedRows (V c main_arg0) (V c main_v30)) (fun t _ => Reg0.flushed_eq V c t) Reg0.rows_covered

end Cert.Gcn

end
-- ==== Proof.Reg1.lean ====
/-
  Region 1 computes relu(A + b) · W, with A : [100000, 16], the bias b a [1, 16] row and W : [16, 16].
  The ten grid points cut A and the output into row blocks of 10000 rows; b and W are read whole at every point.
  Entry (p, q) of the block written at point t is Σ_{k<16} max(A_t(p, k) + b(0, k), 0) · W(k, q), where A_t is block t
  of A: the narrowing casts are the identity on the extended reals and the product accumulates into zero.
  The whole-array function at entry (n, q) is Σ_{k<16} max(A(n, k) + b(0, k), 0) · W(k, q), and entry (p, q) of block t
  is array entry (10000 t + p, q), so each point writes its block of that function. Row n lies in the block of
  point n / 10000, so the ten blocks cover the array and the output ends holding the function everywhere.
-/
import proofs.«408285_j86543591014450_2_alg».proof.Proof.Gen.KernelIdeal.Frame
import proofs.«408285_j86543591014450_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn

open Idealize.ShloMosaic Idealize.ShloMosaic.TcCoe Idealize.ShloMosaic.ValueIdx Idealize.SL.Sem
open Cert.KernelIdeal Cert.KernelIdeal.Gen

namespace Reg1

/-! ## Operand indices of the two products -/

/-- Row of the left operand block read by output entry j of the block at contraction coordinate k: (j₀, k). -/
abbrev lrow (j : S10000x16.Idx) (k : Fin 16) : S10000x16.Idx := fun a => match a with
  | ⟨0, _⟩ => ⟨(j 0).val, (j 0).isLt⟩
  | ⟨1, _⟩ => ⟨k.val, k.isLt⟩
/-- Entry of the weight matrix read by output entry j of the block at contraction coordinate k: (k, j₁). -/
abbrev rcol (j : S10000x16.Idx) (k : Fin 16) : S16x16.Idx := fun a => match a with
  | ⟨0, _⟩ => ⟨k.val, k.isLt⟩
  | ⟨1, _⟩ => ⟨(j 1).val, (j 1).isLt⟩
/-- Entry k of the one bias row: (0, k). -/
abbrev brow (k : Fin 16) : S1x16.Idx := fun a => match a with
  | ⟨0, _⟩ => ⟨0, Nat.one_pos⟩
  | ⟨1, _⟩ => ⟨k.val, k.isLt⟩
/-- The same two operand indices for entry i of the whole array: (i₀, k) and (k, i₁). -/
abbrev arow (i : S100000x16.Idx) (k : Fin 16) : S100000x16.Idx := fun a => match a with
  | ⟨0, _⟩ => ⟨(i 0).val, (i 0).isLt⟩
  | ⟨1, _⟩ => ⟨k.val, k.isLt⟩
abbrev acol (i : S100000x16.Idx) (k : Fin 16) : S16x16.Idx := fun a => match a with
  | ⟨0, _⟩ => ⟨k.val, k.isLt⟩
  | ⟨1, _⟩ => ⟨(i 1).val, (i 1).isLt⟩

/-! ## The block product's dimension numbers, axis by axis -/

theorem blk_lhs_0 (i : S10000x16.Idx) (q : dot_S10000x16_S16x16_S10000x16_1_0_0_1_n_n.contr.Idx) :
    (dot_S10000x16_S16x16_S10000x16_1_0_0_1_n_n.lhsIdx i q 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
theorem blk_lhs_1 (i : S10000x16.Idx) (q : dot_S10000x16_S16x16_S10000x16_1_0_0_1_n_n.contr.Idx) :
    (dot_S10000x16_S16x16_S10000x16_1_0_0_1_n_n.lhsIdx i q 1).val = (q ⟨0, by decide⟩).val :=
  dot_S10000x16_S16x16_S10000x16_1_0_0_1_n_n.lhsIdx_val_of_single rfl i q
theorem blk_rhs_0 (i : S10000x16.Idx) (q : dot_S10000x16_S16x16_S10000x16_1_0_0_1_n_n.contr.Idx) :
    (dot_S10000x16_S16x16_S10000x16_1_0_0_1_n_n.rhsIdx i q 0).val = (q ⟨0, by decide⟩).val :=
  dot_S10000x16_S16x16_S10000x16_1_0_0_1_n_n.rhsIdx_val_of_single rfl i q
theorem blk_rhs_1 (i : S10000x16.Idx) (q : dot_S10000x16_S16x16_S10000x16_1_0_0_1_n_n.contr.Idx) :
    (dot_S10000x16_S16x16_S10000x16_1_0_0_1_n_n.rhsIdx i q 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

/-! ## The whole-array product's dimension numbers, axis by axis -/

theorem arr_lhs_0 (i : S100000x16.Idx) (q : Cert.ReferenceIdeal.dot_S100000x16_S16x16_S100000x16_1_0_0_1_n_n.contr.Idx) :
    (Cert.ReferenceIdeal.dot_S100000x16_S16x16_S100000x16_1_0_0_1_n_n.lhsIdx i q 0).val = (i 0).val := by
  unfold DotDims.lhsIdx
  rw [dif_neg (show ¬(0 : Fin S100000x16.rank) ∈ Cert.ReferenceIdeal.dot_S100000x16_S16x16_S100000x16_1_0_0_1_n_n.lhsBatch by decide), dif_pos (show (0 : Fin S100000x16.rank) ∈ Cert.ReferenceIdeal.dot_S100000x16_S16x16_S100000x16_1_0_0_1_n_n.lhsNonContracting by decide)]
  rfl
theorem arr_lhs_1 (i : S100000x16.Idx) (q : Cert.ReferenceIdeal.dot_S100000x16_S16x16_S100000x16_1_0_0_1_n_n.contr.Idx) :
    (Cert.ReferenceIdeal.dot_S100000x16_S16x16_S100000x16_1_0_0_1_n_n.lhsIdx i q 1).val = (q ⟨0, by decide⟩).val :=
  Cert.ReferenceIdeal.dot_S100000x16_S16x16_S100000x16_1_0_0_1_n_n.lhsIdx_val_of_single rfl i q
theorem arr_rhs_0 (i : S100000x16.Idx) (q : Cert.ReferenceIdeal.dot_S100000x16_S16x16_S100000x16_1_0_0_1_n_n.contr.Idx) :
    (Cert.ReferenceIdeal.dot_S100000x16_S16x16_S100000x16_1_0_0_1_n_n.rhsIdx i q 0).val = (q ⟨0, by decide⟩).val :=
  Cert.ReferenceIdeal.dot_S100000x16_S16x16_S100000x16_1_0_0_1_n_n.rhsIdx_val_of_single rfl i q
theorem arr_rhs_1 (i : S100000x16.Idx) (q : Cert.ReferenceIdeal.dot_S100000x16_S16x16_S100000x16_1_0_0_1_n_n.contr.Idx) :
    (Cert.ReferenceIdeal.dot_S100000x16_S16x16_S100000x16_1_0_0_1_n_n.rhsIdx i q 1).val = (i 1).val := by
  unfold DotDims.rhsIdx
  rw [dif_neg (show ¬(1 : Fin S16x16.rank) ∈ Cert.ReferenceIdeal.dot_S100000x16_S16x16_S100000x16_1_0_0_1_n_n.rhsBatch by decide), dif_pos (show (1 : Fin S16x16.rank) ∈ Cert.ReferenceIdeal.dot_S100000x16_S16x16_S100000x16_1_0_0_1_n_n.rhsNonContracting by decide)]
  rfl

/-! ## The two sides at an entry -/

/-- The block's payload at entry j = (p, q): Σ_k max(x0(p,k) + x1(0,k), 0) · x2(k,q). The narrowing casts are the
    identity on extended reals, the accumulator is the zero splat, the bias row is broadcast down the rows. -/
theorem pay_apply (x0 : FVec Ideal S10000x16 .f32) (x1 : FVec Ideal S1x16 .f32) (x2 : FVec Ideal S16x16 .f32) (j : S10000x16.Idx) :
    k1_pay1 (F := Ideal) x0 x1 x2 j = ∑ k : Fin 16, max (x0 (lrow j k) + x1 (brow k)) (Ideal.ofBits .f32 0x00000000#32) * x2 (rcol j k) := by
  unfold k1_pay1
  simp only [matmul]
  rw [Ideal.matmul_constant_zero_apply, ← Equiv.sum_comp (ValueIdx.contrEquiv1 dot_S10000x16_S16x16_S10000x16_1_0_0_1_n_n 16 rfl rfl).symm]
  refine Finset.sum_congr rfl fun k _ => ?_
  have hk := ValueIdx.contrEquiv1_symm_val dot_S10000x16_S16x16_S10000x16_1_0_0_1_n_n 16 rfl rfl k
  have el : dot_S10000x16_S16x16_S10000x16_1_0_0_1_n_n.lhsIdx j ((ValueIdx.contrEquiv1 dot_S10000x16_S16x16_S10000x16_1_0_0_1_n_n 16 rfl rfl).symm k) = lrow j k := funext fun a => Fin.ext (by
    match a with
    | ⟨0, _⟩ => exact blk_lhs_0 _ _
    | ⟨1, _⟩ => exact (blk_lhs_1 _ _).trans hk)
  have er : dot_S10000x16_S16x16_S10000x16_1_0_0_1_n_n.rhsIdx j ((ValueIdx.contrEquiv1 dot_S10000x16_S16x16_S10000x16_1_0_0_1_n_n 16 rfl rfl).symm k) = rcol j k := funext fun a => Fin.ext (by
    match a with
    | ⟨0, _⟩ => exact (blk_rhs_0 _ _).trans hk
    | ⟨1, _⟩ => exact blk_rhs_1 _ _)
  rw [el, er, shapeCast_self, shapeCast_self]
  have hb : broadcastTo S10000x16 x1 broadcasts_S1x16_S10000x16 (lrow j k) = x1 (brow k) :=
    broadcastTo_apply x1 broadcasts_S1x16_S10000x16 (lrow j k) (brow k) (fun a => match a with
      | ⟨0, _⟩ => by show 0 = if (1 : Nat) = 1 then 0 else _; rw [if_pos rfl]
      | ⟨1, _⟩ => by show k.val = if (16 : Nat) = 1 then 0 else _; rw [if_neg (by decide)]; rfl)
  show max (x0 (lrow j k) + broadcastTo S10000x16 x1 broadcasts_S1x16_S10000x16 (lrow j k)) (Ideal.ofBits .f32 0x00000000#32) * x2 (rcol j k) = _
  rw [hb]

/-- relu(A + b) · W at entry i = (n, q): Σ_k max(A(n,k) + b(0,k), 0) · W(k,q). -/
theorem spec_apply (A : FVec Ideal S100000x16 .f32) (b : FVec Ideal S1x16 .f32) (W : FVec Ideal S16x16 .f32) (i : S100000x16.Idx) :
    reluLinear A b W i = ∑ k : Fin 16, max (A (arow i k) + b (brow k)) (Ideal.ofBits .f32 0x00000000#32) * W (acol i k) := by
  unfold reluLinear
  simp only [Host.dotGeneral]
  rw [Ideal.dotGeneral_apply, ← Equiv.sum_comp (ValueIdx.contrEquiv1 Cert.ReferenceIdeal.dot_S100000x16_S16x16_S100000x16_1_0_0_1_n_n 16 rfl rfl).symm]
  refine Finset.sum_congr rfl fun k _ => ?_
  have hk := ValueIdx.contrEquiv1_symm_val Cert.ReferenceIdeal.dot_S100000x16_S16x16_S100000x16_1_0_0_1_n_n 16 rfl rfl k
  have el : Cert.ReferenceIdeal.dot_S100000x16_S16x16_S100000x16_1_0_0_1_n_n.lhsIdx i ((ValueIdx.contrEquiv1 Cert.ReferenceIdeal.dot_S100000x16_S16x16_S100000x16_1_0_0_1_n_n 16 rfl rfl).symm k) = arow i k := funext fun a => Fin.ext (by
    match a with
    | ⟨0, _⟩ => exact arr_lhs_0 _ _
    | ⟨1, _⟩ => exact (arr_lhs_1 _ _).trans hk)
  have er : Cert.ReferenceIdeal.dot_S100000x16_S16x16_S100000x16_1_0_0_1_n_n.rhsIdx i ((ValueIdx.contrEquiv1 Cert.ReferenceIdeal.dot_S100000x16_S16x16_S100000x16_1_0_0_1_n_n 16 rfl rfl).symm k) = acol i k := funext fun a => Fin.ext (by
    match a with
    | ⟨0, _⟩ => exact (arr_rhs_0 _ _).trans hk
    | ⟨1, _⟩ => exact arr_rhs_1 _ _)
  rw [el, er]
  have hb : broadcastInDim Cert.ReferenceIdeal.S100000x16 ![0, 1] Cert.ReferenceIdeal.Facts₀.bcast_S1x16_S100000x16_0_1 b (arow i k) = b (brow k) :=
    broadcastInDim_apply _ Cert.ReferenceIdeal.Facts₀.bcast_S1x16_S100000x16_0_1 b (arow i k) (brow k) (fun a => match a with
      | ⟨0, _⟩ => by show 0 = if (1 : Nat) = 1 then 0 else _; rw [if_pos rfl]
      | ⟨1, _⟩ => by show k.val = if (16 : Nat) = 1 then 0 else _; rw [if_neg (by decide)]; rfl)
  have hz : broadcastInDim Cert.ReferenceIdeal.S100000x16 ![] Cert.ReferenceIdeal.Facts₀.bcast_S_S100000x16 (constant (F := Ideal) Cert.ReferenceIdeal.S_ .f32 0x00000000#32) (arow i k) = Ideal.ofBits .f32 0x00000000#32 :=
    broadcastInDim_apply _ Cert.ReferenceIdeal.Facts₀.bcast_S_S100000x16 _ (arow i k) ix0 (fun a => a.elim0)
  show max (A (arow i k) + broadcastInDim Cert.ReferenceIdeal.S100000x16 ![0, 1] Cert.ReferenceIdeal.Facts₀.bcast_S1x16_S100000x16_0_1 b (arow i k))
      (broadcastInDim Cert.ReferenceIdeal.S100000x16 ![] Cert.ReferenceIdeal.Facts₀.bcast_S_S100000x16 (constant (F := Ideal) Cert.ReferenceIdeal.S_ .f32 0x00000000#32) (arow i k)) * W (acol i k) = _
  rw [hb, hz]

/-- One entry of a block against one entry of the array: when the block's operands at the entry's row, the bias row and
    the weight column are the arrays' at the array entry's, the payload there is relu(A + b) · W there. -/
theorem point_eq (x0 : FVec Ideal S10000x16 .f32) (x1 : FVec Ideal S1x16 .f32) (x2 : FVec Ideal S16x16 .f32)
    (A : FVec Ideal S100000x16 .f32) (b : FVec Ideal S1x16 .f32) (W : FVec Ideal S16x16 .f32)
    (j : S10000x16.Idx) (i : S100000x16.Idx)
    (h0 : ∀ k : Fin 16, x0 (lrow j k) = A (arow i k))
    (h1 : ∀ k : Fin 16, x1 (brow k) = b (brow k))
    (h2 : ∀ k : Fin 16, x2 (rcol j k) = W (acol i k)) :
    k1_pay1 (F := Ideal) x0 x1 x2 j = reluLinear A b W i := by
  rw [pay_apply, spec_apply]
  exact Finset.sum_congr rfl fun k _ => by rw [h0 k, h1 k, h2 k]

/-! ## From blocks to the array -/

theorem zero_offsets : (![0, 0] : Fin 2 → Nat) = fun _ => 0 := funext fun a => by fin_cases a <;> rfl

/-- The printed index maps over the ten grid points: the row blocks of A and of the output move together, block t at
    point t; the bias row and the weights are their whole arrays at every point. -/
theorem index_maps : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of relu(A + b) · W of the arrays as the region finds them: entry (p, q) of the
    block is array entry (10000 t + p, q), whose row of A is row p of A's block t. -/
theorem flushed_block (c : Dev nD) (t : Fin cfg1.N) :
    (dat1 V c).flushed 3 t = ((cfg1.win 3).blk t).view.read (Elt Ideal) (reluLinear (V c main_v44) (V c main_v45) (V c main_arg6)) := by
  show (cfg1.win 3).cut (grid1.coords t) ((dat1 V c).after 3 t) = _
  rw [after1_3]
  unfold out1_3
  rw [View.canon_unit_zero zero_offsets]
  simp only [View.ld_unit_zero (S := S10000x16) zero_offsets, View.ld_unit_zero (S := S1x16) zero_offsets, View.ld_unit_zero (S := S16x16) zero_offsets]
  obtain ⟨e0, e1, e2, e3, e4, e5, e6, e7⟩ := index_maps t
  funext j
  show k1_pay1 (F := Ideal) (iblk1 V c 0 t) (iblk1 V c 1 t) (iblk1 V c 2 t) j = reluLinear (V c main_v44) (V c main_v45) (V c main_arg6) (((cfg1.win 3).blk t).view.emb j)
  refine point_eq _ _ _ _ _ _ j _ (fun k => ?_) (fun k => ?_) (fun k => ?_)
  · show V c main_v44 (((cfg1.win 0).blk t).view.emb (lrow j k)) = V c main_v44 (arow (((cfg1.win 3).blk t).view.emb j) k)
    refine congrArg _ (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 16 + 1 * k.val = k.val; omega
  · show V c main_v45 (((cfg1.win 1).blk t).view.emb (brow k)) = V c main_v45 (brow k)
    refine congrArg _ (funext fun a => Fin.ext ?_)
    match a with
    | ⟨0, _⟩ => show win1_1.index t (0 : Fin 2) * 1 + 1 * 0 = 0; omega
    | ⟨1, _⟩ => show win1_1.index t (1 : Fin 2) * 16 + 1 * k.val = k.val; omega
  · show V c main_arg6 (((cfg1.win 2).blk t).view.emb (rcol j k)) = V c main_arg6 (acol (((cfg1.win 3).blk t).view.emb j) k)
    refine congrArg _ (funext fun a => Fin.ext ?_)
    match a with
    | ⟨0, _⟩ => show win1_2.index t (0 : Fin 2) * 16 + 1 * k.val = k.val; omega
    | ⟨1, _⟩ => show win1_2.index t (1 : Fin 2) * 16 + 1 * (j 1).val = win1_3.index t (1 : Fin 2) * 16 + 1 * (j 1).val; omega

/-- An entry of the array is in point t's block iff each coordinate is in the block's range on its axis. -/
theorem mem_block (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v46).slice (win1_3.rect t)).set ↔ _
  rw [View.set_slice_whole, Rect.mem_set_unit]
  exact Iff.rfl

/-- The ten row blocks cover the array: row n lies in the block of point n / 10000. -/
theorem rows_covered (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : grid1.N = 10 := N_1
  have ht : (i 0).val / 10000 < grid1.N := by omega
  obtain ⟨e0, e1, e2, e3, e4, e5, e6, e7⟩ := index_maps ⟨(i 0).val / 10000, ht⟩
  have e6' : win1_3.index ⟨(i 0).val / 10000, ht⟩ (0 : Fin 2) = (i 0).val / 10000 := e6
  refine ⟨⟨(i 0).val / 10000, ht⟩, flush1_3 _, ?_⟩
  rw [mem_block]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    omega
  | ⟨1, _⟩ =>
    show win1_3.index ⟨(i 0).val / 10000, ht⟩ (1 : Fin 2) * 16 ≤ (i 1).val ∧ (i 1).val < win1_3.index ⟨(i 0).val / 10000, ht⟩ (1 : Fin 2) * 16 + 16
    omega

end Reg1

open Reg1

variable (V : (c : Dev nD) → (b : Ref sig .tc) → Buf (Elt Ideal) ((c : Thread nD τ).loc b))

theorem region1_value (c : Dev nD) :
    (dat1 V c).arrAt 3 cfg1.N = reluLinear (V c main_v44) (V c main_v45) (V c main_arg6) :=
  (dat1 V c).arrAt_eq_of_cover 3 (reluLinear (V c main_v44) (V c main_v45) (V c main_arg6))
    (fun t _ => flushed_block V c t) rows_covered

end Cert.Gcn

end
-- ==== Proof.Reg2.lean ====
/-
  The third stage, relu(A + b), as one whole-array function of the arrays the stage finds.

  The stage walks ten row blocks of 10000 rows; at block t it reads rows 10000·t … 10000·t + 9999 of A, the whole
  [1, 16] bias row b, and writes max(A(p, q) + b(0, q), 0) at every (p, q) of the block. The host function `reluBias`
  at (r, q) is the same max(A(r, q) + b(0, q), 0): the row broadcast reads b at (0, q) and the broadcast scalar reads
  the zero word. So what block t writes back is block t of `reluBias A b`; row r lies in block r / 10000, the ten
  blocks cover the array, and the array after the last write-back is `reluBias A b`.
-/
import proofs.«408285_j86543591014450_2_alg».proof.Proof.Gen.KernelIdeal.Frame
import proofs.«408285_j86543591014450_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Reg2

/-- The block offsets `![0, 0]` are the zero function. -/
theorem zeros2 : (![0, 0] : Fin 2 → Nat) = fun _ => 0 := funext fun a => by fin_cases a <;> rfl

/-- The block's payload at (p, q): max(x0(p, q) + x1(0, q), 0); `k` is the bias row's index (0, q). -/
theorem relu_pay_apply (x0 : FVec Ideal S10000x16 .f32) (x1 : FVec Ideal S1x16 .f32) (j : S10000x16.Idx) (k : S1x16.Idx)
    (hk0 : (k 0).val = 0) (hk1 : (k 1).val = (j 1).val) :
    k2_pay1 x0 x1 j = max (x0 j + x1 k) (Ideal.ofBits .f32 0x00000000#32) := by
  unfold k2_pay1
  rw [maximumf_apply, addf_apply, broadcast_apply, shapeCast_self, shapeCast_self,
    broadcastTo_apply x1 broadcasts_S1x16_S10000x16 j k (fun a => match a with
      | ⟨0, _⟩ => by show (k 0).val = if (1 : Nat) = 1 then 0 else _; rw [if_pos rfl]; exact hk0
      | ⟨1, _⟩ => by show (k 1).val = if (16 : Nat) = 1 then 0 else (j 1).val; rw [if_neg (by decide)]; exact hk1)]
  rfl

/-- The whole-array function at (r, q): max(A(r, q) + b(0, q), 0); `k` is the bias row's index (0, q). -/
theorem reluBias_apply (A : FVec Ideal Cert.ReferenceIdeal.S100000x16 .f32) (b : FVec Ideal Cert.ReferenceIdeal.S1x16 .f32)
    (i : Cert.ReferenceIdeal.S100000x16.Idx) (k : Cert.ReferenceIdeal.S1x16.Idx)
    (hk0 : (k 0).val = 0) (hk1 : (k 1).val = (i 1).val) :
    reluBias A b i = max (A i + b k) (Ideal.ofBits .f32 0x00000000#32) := by
  unfold reluBias
  rw [maximumf_apply, addf_apply,
    broadcastInDim_apply _ _ b i k (fun a => match a with
      | ⟨0, _⟩ => by show (k 0).val = if (1 : Nat) = 1 then 0 else (i 0).val; rw [if_pos rfl]; exact hk0
      | ⟨1, _⟩ => by show (k 1).val = if (16 : Nat) = 1 then 0 else (i 1).val; rw [if_neg (by decide)]; exact hk1),
    broadcastInDim_apply _ _ (constant (F := Ideal) Cert.ReferenceIdeal.S_ .f32 0x00000000#32) i ix0 (fun a => a.elim0), constant_apply]

/-- The block indices over the ten points: A's and the output's block at point t is (t, 0), the bias row's is (0, 0). -/
theorem relu_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The payload of blocks x0, x1 at j is the whole-array function of A, b at i, when x0(j) = A(i), x1 is b on the
    bias row and i, j have the same column. -/
theorem relu_block_eq (x0 : FVec Ideal S10000x16 .f32) (x1 : FVec Ideal S1x16 .f32)
    (A : FVec Ideal Cert.ReferenceIdeal.S100000x16 .f32) (b : FVec Ideal Cert.ReferenceIdeal.S1x16 .f32)
    (j : S10000x16.Idx) (i : Cert.ReferenceIdeal.S100000x16.Idx) (k : S1x16.Idx)
    (hk0 : (k 0).val = 0) (hk1 : (k 1).val = (j 1).val) (hi1 : (i 1).val = (j 1).val)
    (h0 : x0 j = A i) (h1 : x1 k = b k) :
    k2_pay1 x0 x1 j = reluBias A b i := by
  rw [relu_pay_apply x0 x1 j k hk0 hk1, reluBias_apply A b i k hk0 (hk1.trans hi1.symm), h0, h1]

/-- What point t writes back is block t of `reluBias A b`: A's block at t sits where the output's does
    (row 10000·t + p, column q), and the bias row's one block is the whole row. -/
theorem relu_flushed (c : Dev nD) (t : Fin cfg2.N) :
    (dat2 V c).flushed 2 t = ((cfg2.win 2).blk t).view.read (Elt Ideal) (reluBias (V c main_v59) (V c main_v60)) := by
  show (cfg2.win 2).cut (grid2.coords t) ((dat2 V c).after 2 t) = _
  rw [after2_2]
  unfold out2_2
  rw [View.canon_unit_zero zeros2]
  simp only [View.ld_unit_zero (S := S10000x16) zeros2, View.ld_unit_zero (S := S1x16) zeros2]
  obtain ⟨e00, e01, e10, e11, e20, e21⟩ := relu_idx t
  funext j
  show k2_pay1 (iblk2 V c 0 t) (iblk2 V c 1 t) j
    = reluBias (V c main_v59) (V c main_v60) (((cfg2.win 2).blk t).view.emb j)
  have hj1 : (j 1).val < 16 := (j 1).isLt
  refine relu_block_eq _ _ _ _ j _ (ix2 (0 : Fin 1) (⟨(j 1).val, hj1⟩ : Fin 16)) rfl rfl ?_ ?_ ?_
  · show win2_2.index t (1 : Fin 2) * 16 + 1 * (j 1).val = (j 1).val
    rw [e21]; omega
  · show V c main_v59 (((cfg2.win 0).blk t).view.emb j) = V c main_v59 (((cfg2.win 2).blk t).view.emb j)
    refine congrArg _ (funext fun a => Fin.ext ?_)
    match a with
    | ⟨0, _⟩ => show win2_0.index t (0 : Fin 2) * 10000 + 1 * (j 0).val = win2_2.index t (0 : Fin 2) * 10000 + 1 * (j 0).val; rw [e00, e20]
    | ⟨1, _⟩ => show win2_0.index t (1 : Fin 2) * 16 + 1 * (j 1).val = win2_2.index t (1 : Fin 2) * 16 + 1 * (j 1).val; rw [e01, e21]
  · show V c main_v60 (((cfg2.win 1).blk t).view.emb (ix2 (0 : Fin 1) (⟨(j 1).val, hj1⟩ : Fin 16))) = V c main_v60 (ix2 (0 : Fin 1) (⟨(j 1).val, hj1⟩ : Fin 16))
    refine congrArg _ (funext fun a => Fin.ext ?_)
    match a with
    | ⟨0, _⟩ => show win2_1.index t (0 : Fin 2) * 1 + 1 * 0 = 0; rw [e10]
    | ⟨1, _⟩ => show win2_1.index t (1 : Fin 2) * 16 + 1 * (j 1).val = (j 1).val; rw [e11]; omega

/-- An index of the output array is in point t's block iff each coordinate is in the block's range on its axis. -/
theorem relu_mem_blk (t : Fin cfg2.N) (i : S100000x16.Idx) :
    i ∈ ((cfg2.win 2).blk t).view.set ↔ ∀ a : Fin 2, win2_2.index t a * S10000x16.size a ≤ (i a).val
      ∧ (i a).val < win2_2.index t a * S10000x16.size a + S10000x16.size a := by
  show i ∈ ((View.whole main_v61).slice (win2_2.rect t)).set ↔ _
  rw [View.set_slice_whole, Rect.mem_set_unit]
  exact Iff.rfl

/-- The ten blocks cover the array: row r is in the block of point r / 10000. -/
theorem relu_cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : grid2.N = 10 := N_2
  obtain ⟨t, ht⟩ : ∃ t : Fin cfg2.N, t.val = (i 0).val / 10000 :=
    ⟨⟨(i 0).val / 10000, by show _ < grid2.N; rw [hN]; omega⟩, rfl⟩
  obtain ⟨-, -, -, -, e20, e21⟩ := relu_idx t
  refine ⟨t, flush2_2 t, ?_⟩
  rw [relu_mem_blk]
  intro a
  match a with
  | ⟨0, _⟩ =>
    show win2_2.index t (0 : Fin 2) * 10000 ≤ (i 0).val ∧ (i 0).val < win2_2.index t (0 : Fin 2) * 10000 + 10000
    rw [e20, ht]; omega
  | ⟨1, _⟩ =>
    show win2_2.index t (1 : Fin 2) * 16 ≤ (i 1).val ∧ (i 1).val < win2_2.index t (1 : Fin 2) * 16 + 16
    rw [e21]; omega

end Reg2

/-- The output array after the last write-back is relu(A + b) of the arrays the stage finds. -/
theorem region2_value (c : Dev nD) :
    (dat2 V c).arrAt 2 cfg2.N = reluBias (V c main_v59) (V c main_v60) :=
  (dat2 V c).arrAt_eq_of_cover 2 (reluBias (V c main_v59) (V c main_v60)) (fun t _ => Reg2.relu_flushed V c t) Reg2.relu_cover

end Cert.Gcn

end
-- ==== Proof.Reg3.lean ====
/-
  The last stage, P · W + b, as one whole-array function of the arrays the stage finds.

  The stage has one point, and each of its four windows is its whole array at block (0, 0). Its payload at (p, q)
  is Σ_r P(p, r) · W(r, q) + b(0, q): the block product into a zero accumulator is the sum over the one contracted
  axis (P's axis 1 against W's axis 0, 16 terms), the change of format of the factors is the identity on extended
  reals, and the bias is the [1, 10] row read at (0, q). The host function `classify` at (p, q) is the same sum plus
  the same bias entry. So the one write-back is the whole of `classify P W b`, and its block covers the array.
-/
import proofs.«408285_j86543591014450_2_alg».proof.Proof.Gen.KernelIdeal.Frame
import proofs.«408285_j86543591014450_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Reg3

/-- The block offsets `![0, 0]` are the zero function. -/
theorem zeros2 : (![0, 0] : Fin 2 → Nat) = fun _ => 0 := funext fun a => by fin_cases a <;> rfl

/-- The stage's product contracts P's axis 1 with W's axis 0: P is read at (row of the output, r) … -/
theorem klhs_0 (i : S512x10.Idx) (q : Cert.KernelIdeal.dot_S512x16_S16x10_S512x10_1_0_0_1_n_n.contr.Idx) :
    (Cert.KernelIdeal.dot_S512x16_S16x10_S512x10_1_0_0_1_n_n.lhsIdx i q 0).val = (i 0).val := by
  unfold DotDims.lhsIdx
  rw [dif_neg (show ¬(0 : Fin S512x16.rank) ∈ Cert.KernelIdeal.dot_S512x16_S16x10_S512x10_1_0_0_1_n_n.lhsBatch by decide), dif_pos (show (0 : Fin S512x16.rank) ∈ Cert.KernelIdeal.dot_S512x16_S16x10_S512x10_1_0_0_1_n_n.lhsNonContracting by decide)]
  rfl
theorem klhs_1 (i : S512x10.Idx) (q : Cert.KernelIdeal.dot_S512x16_S16x10_S512x10_1_0_0_1_n_n.contr.Idx) :
    (Cert.KernelIdeal.dot_S512x16_S16x10_S512x10_1_0_0_1_n_n.lhsIdx i q 1).val = (q ⟨0, by decide⟩).val :=
  Cert.KernelIdeal.dot_S512x16_S16x10_S512x10_1_0_0_1_n_n.lhsIdx_val_of_single rfl i q
/-- … and W at (r, column of the output). -/
theorem krhs_0 (i : S512x10.Idx) (q : Cert.KernelIdeal.dot_S512x16_S16x10_S512x10_1_0_0_1_n_n.contr.Idx) :
    (Cert.KernelIdeal.dot_S512x16_S16x10_S512x10_1_0_0_1_n_n.rhsIdx i q 0).val = (q ⟨0, by decide⟩).val :=
  Cert.KernelIdeal.dot_S512x16_S16x10_S512x10_1_0_0_1_n_n.rhsIdx_val_of_single rfl i q
theorem krhs_1 (i : S512x10.Idx) (q : Cert.KernelIdeal.dot_S512x16_S16x10_S512x10_1_0_0_1_n_n.contr.Idx) :
    (Cert.KernelIdeal.dot_S512x16_S16x10_S512x10_1_0_0_1_n_n.rhsIdx i q 1).val = (i 1).val := by
  unfold DotDims.rhsIdx
  rw [dif_neg (show ¬(1 : Fin S16x10.rank) ∈ Cert.KernelIdeal.dot_S512x16_S16x10_S512x10_1_0_0_1_n_n.rhsBatch by decide), dif_pos (show (1 : Fin S16x10.rank) ∈ Cert.KernelIdeal.dot_S512x16_S16x10_S512x10_1_0_0_1_n_n.rhsNonContracting by decide)]
  rfl

/-- The same four readings for the host product's dimension numbers. -/
theorem hlhs_0 (i : Cert.ReferenceIdeal.S512x10.Idx) (q : Cert.ReferenceIdeal.dot_S512x16_S16x10_S512x10_1_0_0_1_n_n.contr.Idx) :
    (Cert.ReferenceIdeal.dot_S512x16_S16x10_S512x10_1_0_0_1_n_n.lhsIdx i q 0).val = (i 0).val := by
  unfold DotDims.lhsIdx
  rw [dif_neg (show ¬(0 : Fin Cert.ReferenceIdeal.S512x16.rank) ∈ Cert.ReferenceIdeal.dot_S512x16_S16x10_S512x10_1_0_0_1_n_n.lhsBatch by decide), dif_pos (show (0 : Fin Cert.ReferenceIdeal.S512x16.rank) ∈ Cert.ReferenceIdeal.dot_S512x16_S16x10_S512x10_1_0_0_1_n_n.lhsNonContracting by decide)]
  rfl
theorem hlhs_1 (i : Cert.ReferenceIdeal.S512x10.Idx) (q : Cert.ReferenceIdeal.dot_S512x16_S16x10_S512x10_1_0_0_1_n_n.contr.Idx) :
    (Cert.ReferenceIdeal.dot_S512x16_S16x10_S512x10_1_0_0_1_n_n.lhsIdx i q 1).val = (q ⟨0, by decide⟩).val :=
  Cert.ReferenceIdeal.dot_S512x16_S16x10_S512x10_1_0_0_1_n_n.lhsIdx_val_of_single rfl i q
theorem hrhs_0 (i : Cert.ReferenceIdeal.S512x10.Idx) (q : Cert.ReferenceIdeal.dot_S512x16_S16x10_S512x10_1_0_0_1_n_n.contr.Idx) :
    (Cert.ReferenceIdeal.dot_S512x16_S16x10_S512x10_1_0_0_1_n_n.rhsIdx i q 0).val = (q ⟨0, by decide⟩).val :=
  Cert.ReferenceIdeal.dot_S512x16_S16x10_S512x10_1_0_0_1_n_n.rhsIdx_val_of_single rfl i q
theorem hrhs_1 (i : Cert.ReferenceIdeal.S512x10.Idx) (q : Cert.ReferenceIdeal.dot_S512x16_S16x10_S512x10_1_0_0_1_n_n.contr.Idx) :
    (Cert.ReferenceIdeal.dot_S512x16_S16x10_S512x10_1_0_0_1_n_n.rhsIdx i q 1).val = (i 1).val := by
  unfold DotDims.rhsIdx
  rw [dif_neg (show ¬(1 : Fin Cert.ReferenceIdeal.S16x10.rank) ∈ Cert.ReferenceIdeal.dot_S512x16_S16x10_S512x10_1_0_0_1_n_n.rhsBatch by decide), dif_pos (show (1 : Fin Cert.ReferenceIdeal.S16x10.rank) ∈ Cert.ReferenceIdeal.dot_S512x16_S16x10_S512x10_1_0_0_1_n_n.rhsNonContracting by decide)]
  rfl

/-- P's index (p, r) and W's index (r, q) for the output index (p, q) and the contracted coordinate r. -/
abbrev lix (i : S512x10.Idx) (r : Fin 16) : S512x16.Idx := fun a => match a with
  | ⟨0, _⟩ => ⟨(i 0).val, (i 0).isLt⟩
  | ⟨1, _⟩ => ⟨r.val, r.isLt⟩
abbrev rix (i : S512x10.Idx) (r : Fin 16) : S16x10.Idx := fun a => match a with
  | ⟨0, _⟩ => ⟨r.val, r.isLt⟩
  | ⟨1, _⟩ => ⟨(i 1).val, (i 1).isLt⟩

/-- The stage's payload at (p, q): Σ_r x0(p, r) · x1(r, q) + x2(0, q); `k` is the bias row's index (0, q). -/
theorem cls_pay_apply (x0 : FVec Ideal S512x16 .f32) (x1 : FVec Ideal S16x10 .f32) (x2 : FVec Ideal S1x10 .f32)
    (j : S512x10.Idx) (k : S1x10.Idx) (hk0 : (k 0).val = 0) (hk1 : (k 1).val = (j 1).val) :
    k3_pay1 x0 x1 x2 j = (∑ r : Fin 16, x0 (lix j r) * x1 (rix j r)) + x2 k := by
  unfold k3_pay1
  simp only [matmul]
  rw [addf_apply, shapeCast_self, shapeCast_self, Ideal.matmul_constant_zero_apply,
    ← Equiv.sum_comp (contrEquiv1 Cert.KernelIdeal.dot_S512x16_S16x10_S512x10_1_0_0_1_n_n 16 rfl rfl).symm,
    broadcastTo_apply x2 broadcasts_S1x10_S512x10 j k (fun a => match a with
      | ⟨0, _⟩ => by show (k 0).val = if (1 : Nat) = 1 then 0 else _; rw [if_pos rfl]; exact hk0
      | ⟨1, _⟩ => by show (k 1).val = if (10 : Nat) = 1 then 0 else (j 1).val; rw [if_neg (by decide)]; exact hk1)]
  refine congrArg (· + x2 k) (Finset.sum_congr rfl fun r _ => ?_)
  have hr := contrEquiv1_symm_val Cert.KernelIdeal.dot_S512x16_S16x10_S512x10_1_0_0_1_n_n 16 rfl rfl r
  have el : Cert.KernelIdeal.dot_S512x16_S16x10_S512x10_1_0_0_1_n_n.lhsIdx j ((contrEquiv1 Cert.KernelIdeal.dot_S512x16_S16x10_S512x10_1_0_0_1_n_n 16 rfl rfl).symm r) = lix j r := funext fun a => Fin.ext (by
    match a with
    | ⟨0, _⟩ => exact klhs_0 _ _
    | ⟨1, _⟩ => exact (klhs_1 _ _).trans hr)
  have er : Cert.KernelIdeal.dot_S512x16_S16x10_S512x10_1_0_0_1_n_n.rhsIdx j ((contrEquiv1 Cert.KernelIdeal.dot_S512x16_S16x10_S512x10_1_0_0_1_n_n 16 rfl rfl).symm r) = rix j r := funext fun a => Fin.ext (by
    match a with
    | ⟨0, _⟩ => exact (krhs_0 _ _).trans hr
    | ⟨1, _⟩ => exact krhs_1 _ _)
  rw [truncf_apply, truncf_apply, el, er]

/-- The whole-array function at (p, q): Σ_r P(p, r) · W(r, q) + b(0, q). -/
theorem classify_apply (P : FVec Ideal Cert.ReferenceIdeal.S512x16 .f32) (W : FVec Ideal Cert.ReferenceIdeal.S16x10 .f32)
    (b : FVec Ideal Cert.ReferenceIdeal.S1x10 .f32) (i : Cert.ReferenceIdeal.S512x10.Idx) (k : Cert.ReferenceIdeal.S1x10.Idx)
    (hk0 : (k 0).val = 0) (hk1 : (k 1).val = (i 1).val) :
    classify P W b i = (∑ r : Fin 16, P (lix i r) * W (rix i r)) + b k := by
  unfold classify
  rw [addf_apply, broadcastInDim_apply _ _ b i k (fun a => match a with
      | ⟨0, _⟩ => by show (k 0).val = if (1 : Nat) = 1 then 0 else (i 0).val; rw [if_pos rfl]; exact hk0
      | ⟨1, _⟩ => by show (k 1).val = if (10 : Nat) = 1 then 0 else (i 1).val; rw [if_neg (by decide)]; exact hk1)]
  simp only [Host.dotGeneral]
  rw [Ideal.dotGeneral_apply, ← Equiv.sum_comp (contrEquiv1 Cert.ReferenceIdeal.dot_S512x16_S16x10_S512x10_1_0_0_1_n_n 16 rfl rfl).symm]
  refine congrArg (· + b k) (Finset.sum_congr rfl fun r _ => ?_)
  have hr := contrEquiv1_symm_val Cert.ReferenceIdeal.dot_S512x16_S16x10_S512x10_1_0_0_1_n_n 16 rfl rfl r
  have el : Cert.ReferenceIdeal.dot_S512x16_S16x10_S512x10_1_0_0_1_n_n.lhsIdx i ((contrEquiv1 Cert.ReferenceIdeal.dot_S512x16_S16x10_S512x10_1_0_0_1_n_n 16 rfl rfl).symm r) = lix i r := funext fun a => Fin.ext (by
    match a with
    | ⟨0, _⟩ => exact hlhs_0 _ _
    | ⟨1, _⟩ => exact (hlhs_1 _ _).trans hr)
  have er : Cert.ReferenceIdeal.dot_S512x16_S16x10_S512x10_1_0_0_1_n_n.rhsIdx i ((contrEquiv1 Cert.ReferenceIdeal.dot_S512x16_S16x10_S512x10_1_0_0_1_n_n 16 rfl rfl).symm r) = rix i r := funext fun a => Fin.ext (by
    match a with
    | ⟨0, _⟩ => exact (hrhs_0 _ _).trans hr
    | ⟨1, _⟩ => exact hrhs_1 _ _)
  rw [el, er]

/-- Every window of the one-point stage sits at block (0, 0): its block is its whole array. -/
theorem cls_idx : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The payload of blocks that ARE the arrays P, W, b, at j, is the whole-array function at the same index. -/
theorem cls_block_eq (x0 : FVec Ideal S512x16 .f32) (x1 : FVec Ideal S16x10 .f32) (x2 : FVec Ideal S1x10 .f32)
    (P : FVec Ideal Cert.ReferenceIdeal.S512x16 .f32) (W : FVec Ideal Cert.ReferenceIdeal.S16x10 .f32)
    (b : FVec Ideal Cert.ReferenceIdeal.S1x10 .f32) (j : S512x10.Idx) (i : Cert.ReferenceIdeal.S512x10.Idx)
    (hij : i = j) (h0 : x0 = P) (h1 : x1 = W) (h2 : x2 = b) :
    k3_pay1 x0 x1 x2 j = classify P W b i := by
  subst hij
  have hq : (i 1).val < 10 := (i 1).isLt
  rw [cls_pay_apply x0 x1 x2 i (ix2 (0 : Fin 1) (⟨(i 1).val, hq⟩ : Fin 10)) rfl rfl,
    classify_apply P W b i (ix2 (0 : Fin 1) (⟨(i 1).val, hq⟩ : Fin 10)) rfl rfl, h0, h1, h2]

/-- What the one point writes back is the (one, whole) block of `classify P W b`. -/
theorem cls_flushed (c : Dev nD) (t : Fin cfg3.N) :
    (dat3 V c).flushed 3 t
      = ((cfg3.win 3).blk t).view.read (Elt Ideal) (classify (V c main_v73) (V c main_arg8) (V c main_v74)) := by
  show (cfg3.win 3).cut (grid3.coords t) ((dat3 V c).after 3 t) = _
  rw [after3_3]
  unfold out3_3
  rw [View.canon_unit_zero zeros2]
  simp only [View.ld_unit_zero (S := S512x16) zeros2, View.ld_unit_zero (S := S16x10) zeros2,
    View.ld_unit_zero (S := S1x10) zeros2]
  obtain ⟨e00, e01, e10, e11, e20, e21, e30, e31⟩ := cls_idx t
  funext j
  show k3_pay1 (iblk3 V c 0 t) (iblk3 V c 1 t) (iblk3 V c 2 t) j
    = classify (V c main_v73) (V c main_arg8) (V c main_v74) (((cfg3.win 3).blk t).view.emb j)
  refine cls_block_eq _ _ _ _ _ _ j _ ?_ ?_ ?_ ?_
  · refine funext fun a => Fin.ext ?_
    match a with
    | ⟨0, _⟩ => show win3_3.index t (0 : Fin 2) * 512 + 1 * (j 0).val = (j 0).val; rw [e30]; omega
    | ⟨1, _⟩ => show win3_3.index t (1 : Fin 2) * 10 + 1 * (j 1).val = (j 1).val; rw [e31]; omega
  · funext y
    show V c main_v73 (((cfg3.win 0).blk t).view.emb y) = V c main_v73 y
    refine congrArg _ (funext fun a => Fin.ext ?_)
    match a with
    | ⟨0, _⟩ => show win3_0.index t (0 : Fin 2) * 512 + 1 * (y 0).val = (y 0).val; rw [e00]; omega
    | ⟨1, _⟩ => show win3_0.index t (1 : Fin 2) * 16 + 1 * (y 1).val = (y 1).val; rw [e01]; omega
  · funext y
    show V c main_arg8 (((cfg3.win 1).blk t).view.emb y) = V c main_arg8 y
    refine congrArg _ (funext fun a => Fin.ext ?_)
    match a with
    | ⟨0, _⟩ => show win3_1.index t (0 : Fin 2) * 16 + 1 * (y 0).val = (y 0).val; rw [e10]; omega
    | ⟨1, _⟩ => show win3_1.index t (1 : Fin 2) * 10 + 1 * (y 1).val = (y 1).val; rw [e11]; omega
  · funext y
    show V c main_v74 (((cfg3.win 2).blk t).view.emb y) = V c main_v74 y
    refine congrArg _ (funext fun a => Fin.ext ?_)
    match a with
    | ⟨0, _⟩ => show win3_2.index t (0 : Fin 2) * 1 + 1 * (y 0).val = (y 0).val; rw [e20]; omega
    | ⟨1, _⟩ => show win3_2.index t (1 : Fin 2) * 10 + 1 * (y 1).val = (y 1).val; rw [e21]; omega

/-- An index of the output array is in point t's block iff each coordinate is in the block's range on its axis. -/
theorem cls_mem_blk (t : Fin cfg3.N) (i : S512x10.Idx) :
    i ∈ ((cfg3.win 3).blk t).view.set ↔ ∀ a : Fin 2, win3_3.index t a * S512x10.size a ≤ (i a).val
      ∧ (i a).val < win3_3.index t a * S512x10.size a + S512x10.size a := by
  show i ∈ ((View.whole main_v75).slice (win3_3.rect t)).set ↔ _
  rw [View.set_slice_whole, Rect.mem_set_unit]
  exact Iff.rfl

/-- The one block is the whole [512, 10] array: every index is in it. -/
theorem cls_cover (i : S512x10.Idx) :
    ∃ t : Fin cfg3.N, (cfg3.win 3).flush t = true ∧ i ∈ ((cfg3.win 3).blk t).view.set := by
  have hi0 : (i 0).val < 512 := (i 0).isLt
  have hi1 : (i 1).val < 10 := (i 1).isLt
  obtain ⟨-, -, -, -, -, -, e30, e31⟩ := cls_idx t3_0
  refine ⟨t3_0, flush3_3 t3_0, ?_⟩
  rw [cls_mem_blk]
  intro a
  match a with
  | ⟨0, _⟩ =>
    show win3_3.index t3_0 (0 : Fin 2) * 512 ≤ (i 0).val ∧ (i 0).val < win3_3.index t3_0 (0 : Fin 2) * 512 + 512
    rw [e30]; omega
  | ⟨1, _⟩ =>
    show win3_3.index t3_0 (1 : Fin 2) * 10 ≤ (i 1).val ∧ (i 1).val < win3_3.index t3_0 (1 : Fin 2) * 10 + 10
    rw [e31]; omega

end Reg3

/-- The output array after the one write-back is P · W + b of the arrays the stage finds. -/
theorem region3_value (c : Dev nD) :
    (dat3 V c).arrAt 3 cfg3.N = classify (V c main_v73) (V c main_arg8) (V c main_v74) :=
  (dat3 V c).arrAt_eq_of_cover 3 (classify (V c main_v73) (V c main_arg8) (V c main_v74))
    (fun t _ => Reg3.cls_flushed V c t) Reg3.cls_cover

end Cert.Gcn

end
-- ==== Proof.KValue.lean ====
/-
  What the kernel program's result buffer holds at the end of @main, as the composition of the stages.

  @main is four kernel launches among stretches of host operations. Walking its segment boundaries in order:
  the host computes the edge sources and destinations (the edge list with the self loops appended), the symmetric
  normalisation of every edge, and the product of the embedding table with W1; launch 0 leaves row x[n] of that
  product in row n (`embedRows`); the host aggregates over the edges; launch 1 applies relu(· + b1) · W2; the host
  aggregates again; launch 2 applies relu(· + b2); the host pools each graph's mean; launch 3 applies · Wc + bc.
  A launch changes only its own output array, and a host stretch only the buffers it writes, so the sources,
  destinations and normalisation computed first are what both aggregations read, and every argument array is
  as launched wherever it is read.
-/
import proofs.«408285_j86543591014450_2_alg».proof.Proof.Gen.KernelIdeal.Frame
import proofs.«408285_j86543591014450_2_alg».proof.Proof.Spec
import proofs.«408285_j86543591014450_2_alg».proof.Proof.Layers
import proofs.«408285_j86543591014450_2_alg».proof.Proof.KHost
import proofs.«408285_j86543591014450_2_alg».proof.Proof.Reg0
import proofs.«408285_j86543591014450_2_alg».proof.Proof.Reg1
import proofs.«408285_j86543591014450_2_alg».proof.Proof.Reg2
import proofs.«408285_j86543591014450_2_alg».proof.Proof.Reg3
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Gen
open Cert.ReferenceIdeal.ReadP

variable (m : (ℓ : Loc nD τ sig) → Buf (Elt Ideal) ℓ) (ρ : Dev nD → PrngReg)

/-- No operation of the stretch writes the buffer, so it holds what it held. -/
local macro "unwritten" ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## The argument arrays as launched -/

abbrev ids (c : Dev nD) : IVec S100000x1 32 := m ((c : Thread nD τ).loc main_arg0)
abbrev edges (c : Dev nD) : IVec S2x3200000 32 := m ((c : Thread nD τ).loc main_arg1)
abbrev graphs (c : Dev nD) : IVec S100000 32 := m ((c : Thread nD τ).loc main_arg2)
abbrev table (c : Dev nD) : FVec Ideal S128x16 .f32 := m ((c : Thread nD τ).loc main_arg3)
abbrev w1 (c : Dev nD) : FVec Ideal S16x16 .f32 := m ((c : Thread nD τ).loc main_arg4)
abbrev b1 (c : Dev nD) : FVec Ideal S16 .f32 := m ((c : Thread nD τ).loc main_arg5)
abbrev w2 (c : Dev nD) : FVec Ideal S16x16 .f32 := m ((c : Thread nD τ).loc main_arg6)
abbrev b2 (c : Dev nD) : FVec Ideal S16 .f32 := m ((c : Thread nD τ).loc main_arg7)
abbrev wc (c : Dev nD) : FVec Ideal S16x10 .f32 := m ((c : Thread nD τ).loc main_arg8)
abbrev bc (c : Dev nD) : FVec Ideal S10 .f32 := m ((c : Thread nD τ).loc main_arg9)

/-- Through the three host stretches before the first launch an argument array is as launched. -/
theorem arg_at_W3 (c : Dev nD) (b : Ref sig .tc)
    (hb : b = main_arg0 ∨ b = main_arg2 ∨ b = main_arg3 ∨ b = main_arg4 ∨ b = main_arg5 ∨ b = main_arg6 ∨ b = main_arg7 ∨ b = main_arg8 ∨ b = main_arg9) :
    W3 m ρ c (Proc.devRef .tc b) = m ((c : Thread nD τ).loc b) := by
  rcases hb with rfl | rfl | rfl | rfl | rfl | rfl | rfl | rfl | rfl <;>
  · show StableHlo.after hostOps0_2 (W2 m ρ c) (Proc.devRef .tc _) = _
    refine Eq.trans (by unwritten hostOps0_2) ?_
    show StableHlo.after hostOps0_1 (W1 m ρ c) (Proc.devRef .tc _) = _
    refine Eq.trans (by unwritten hostOps0_1) ?_
    show StableHlo.after hostOps0 (W0 m ρ c) (Proc.devRef .tc _) = _
    refine Eq.trans (by unwritten hostOps0) ?_
    rfl

/-! ## Before the first launch -/

/-- The sources, destinations and normalisation at the first launch are the reference's stages of the launch-time edge list. -/
theorem src_at_W3' (c : Dev nD) : (W3 m ρ c (Proc.devRef .tc main_v3) : IVec S3300000 32) = val_main_v3 (F := Ideal) (edges m c) := src_at_W3 m ρ c
theorem dst_at_W3' (c : Dev nD) : (W3 m ρ c (Proc.devRef .tc main_v6) : IVec S3300000 32) = val_main_v6 (F := Ideal) (edges m c) := dst_at_W3 m ρ c
theorem norm_at_W3' (c : Dev nD) : (W3 m ρ c (Proc.devRef .tc main_v29) : FVec Ideal S3300000 .f32) = val_main_v29 (F := Ideal) (edges m c) := norm_at_W3 m ρ c

set_option maxHeartbeats 2000000 in
/-- The embedding table times W1. -/
theorem table_at_W3 (c : Dev nD) : (W3 m ρ c (Proc.devRef .tc main_v30) : FVec Ideal S128x16 .f32)
    = Host.dotGeneral (F := Ideal) dot_S128x16_S16x16_S128x16_1_0_0_1_n_n none (table m c) (w1 m c) := by
  show StableHlo.after hostOps0_2 (W2 m ρ c) (Proc.devRef .tc main_v30) = _
  after_results
  try rfl

/-! ## Launch 0 and the first aggregation -/

/-- Launch 0 leaves, in row n, row x[n] of the table times W1. -/
theorem hw1_at_W4 (c : Dev nD) : (W4 m ρ c (Proc.devRef .tc main_v31) : FVec Ideal S100000x16 .f32)
    = embedRows (ids m c) (Host.dotGeneral (F := Ideal) dot_S128x16_S16x16_S128x16_1_0_0_1_n_n none (table m c) (w1 m c)) := by
  refine (W4_arr m ρ c 2).trans ?_
  refine (region0_value (V3 m ρ) c).trans ?_
  show embedRows (W3 m ρ c (Proc.devRef .tc main_arg0)) (W3 m ρ c (Proc.devRef .tc main_v30)) = _
  rw [arg_at_W3 m ρ c main_arg0 (Or.inl rfl), table_at_W3]

/-- Launch 0 writes only its output: the sources, destinations and normalisation stay. -/
theorem src_at_W4 (c : Dev nD) : (W4 m ρ c (Proc.devRef .tc main_v3) : IVec S3300000 32) = val_main_v3 (F := Ideal) (edges m c) :=
  (W4_of_ne m ρ c main_v3 (by decide)).trans (src_at_W3' m ρ c)
theorem dst_at_W4 (c : Dev nD) : (W4 m ρ c (Proc.devRef .tc main_v6) : IVec S3300000 32) = val_main_v6 (F := Ideal) (edges m c) :=
  (W4_of_ne m ρ c main_v6 (by decide)).trans (dst_at_W3' m ρ c)
theorem norm_at_W4 (c : Dev nD) : (W4 m ρ c (Proc.devRef .tc main_v29) : FVec Ideal S3300000 .f32) = val_main_v29 (F := Ideal) (edges m c) :=
  (W4_of_ne m ρ c main_v29 (by decide)).trans (norm_at_W3' m ρ c)
/-- … and so does an argument array other than the ids. -/
theorem arg_at_W4 (c : Dev nD) (b : Ref sig .tc)
    (hb : b = main_arg2 ∨ b = main_arg5 ∨ b = main_arg6 ∨ b = main_arg7 ∨ b = main_arg8 ∨ b = main_arg9) :
    W4 m ρ c (Proc.devRef .tc b) = m ((c : Thread nD τ).loc b) := by
  rcases hb with rfl | rfl | rfl | rfl | rfl | rfl
  · exact (W4_of_ne m ρ c _ (by decide)).trans (arg_at_W3 m ρ c _ (by simp))
  · exact (W4_of_ne m ρ c _ (by decide)).trans (arg_at_W3 m ρ c _ (by simp))
  · exact (W4_of_ne m ρ c _ (by decide)).trans (arg_at_W3 m ρ c _ (by simp))
  · exact (W4_of_ne m ρ c _ (by decide)).trans (arg_at_W3 m ρ c _ (by simp))
  · exact (W4_of_ne m ρ c _ (by decide)).trans (arg_at_W3 m ρ c _ (by simp))
  · exact (W4_of_ne m ρ c _ (by decide)).trans (arg_at_W3 m ρ c _ (by simp))

set_option maxHeartbeats 4000000 in
/-- The first aggregation of launch 0's rows over the edges. -/
theorem agg1_at_W5 (c : Dev nD) : (W5 m ρ c (Proc.devRef .tc main_v44) : FVec Ideal S100000x16 .f32)
    = aggregate (edges m c) (W4 m ρ c (Proc.devRef .tc main_v31)) := by
  show StableHlo.after hostOps1 (W4 m ρ c) (Proc.devRef .tc main_v44) = _
  after_results
  rw [src_at_W4 m ρ c, dst_at_W4 m ρ c, norm_at_W4 m ρ c]
  rfl

/-- b1 as a [1, 16] row. -/
theorem bias1_at_W5 (c : Dev nD) : (W5 m ρ c (Proc.devRef .tc main_v45) : FVec Ideal S1x16 .f32) = val_main_v52 (F := Ideal) (b1 m c) := by
  show StableHlo.after hostOps1 (W4 m ρ c) (Proc.devRef .tc main_v45) = _
  after_results
  rw [arg_at_W4 m ρ c main_arg5 (by simp)]
  rfl

/-- The aggregation's host stretch writes none of these. -/
theorem keep_at_W5 (c : Dev nD) (b : Ref sig .tc)
    (hb : b = main_v3 ∨ b = main_v6 ∨ b = main_v29 ∨ b = main_arg2 ∨ b = main_arg6 ∨ b = main_arg7 ∨ b = main_arg8 ∨ b = main_arg9) :
    W5 m ρ c (Proc.devRef .tc b) = W4 m ρ c (Proc.devRef .tc b) := by
  rcases hb with rfl | rfl | rfl | rfl | rfl | rfl | rfl | rfl <;>
  · show StableHlo.after hostOps1 (W4 m ρ c) (Proc.devRef .tc _) = _
    unwritten hostOps1

theorem arg_at_W5 (c : Dev nD) (b : Ref sig .tc)
    (hb : b = main_arg2 ∨ b = main_arg6 ∨ b = main_arg7 ∨ b = main_arg8 ∨ b = main_arg9) :
    W5 m ρ c (Proc.devRef .tc b) = m ((c : Thread nD τ).loc b) := by
  rcases hb with rfl | rfl | rfl | rfl | rfl
  · exact (keep_at_W5 m ρ c _ (by simp)).trans (arg_at_W4 m ρ c _ (by simp))
  · exact (keep_at_W5 m ρ c _ (by simp)).trans (arg_at_W4 m ρ c _ (by simp))
  · exact (keep_at_W5 m ρ c _ (by simp)).trans (arg_at_W4 m ρ c _ (by simp))
  · exact (keep_at_W5 m ρ c _ (by simp)).trans (arg_at_W4 m ρ c _ (by simp))
  · exact (keep_at_W5 m ρ c _ (by simp)).trans (arg_at_W4 m ρ c _ (by simp))

/-! ## Launch 1 and the second aggregation -/

/-- The first layer's output rows times W1, aggregated: what launch 1 reads. -/
def firstAgg (c : Dev nD) : FVec Ideal S100000x16 .f32 :=
  aggregate (edges m c) (embedRows (ids m c) (Host.dotGeneral (F := Ideal) dot_S128x16_S16x16_S128x16_1_0_0_1_n_n none (table m c) (w1 m c)))

/-- Launch 1 leaves relu(agg1 + b1) · W2. -/
theorem hw2_at_W6 (c : Dev nD) : (W6 m ρ c (Proc.devRef .tc main_v46) : FVec Ideal S100000x16 .f32)
    = reluLinear (firstAgg m c) (val_main_v52 (F := Ideal) (b1 m c)) (w2 m c) := by
  refine (W6_arr m ρ c 3).trans ?_
  refine (region1_value (V5 m ρ) c).trans ?_
  show reluLinear (W5 m ρ c (Proc.devRef .tc main_v44)) (W5 m ρ c (Proc.devRef .tc main_v45)) (W5 m ρ c (Proc.devRef .tc main_arg6)) = _
  rw [agg1_at_W5, hw1_at_W4, bias1_at_W5, arg_at_W5 m ρ c main_arg6 (by simp)]
  rfl

theorem src_at_W6 (c : Dev nD) : (W6 m ρ c (Proc.devRef .tc main_v3) : IVec S3300000 32) = val_main_v3 (F := Ideal) (edges m c) :=
  (W6_of_ne m ρ c main_v3 (by decide)).trans ((keep_at_W5 m ρ c main_v3 (by simp)).trans (src_at_W4 m ρ c))
theorem dst_at_W6 (c : Dev nD) : (W6 m ρ c (Proc.devRef .tc main_v6) : IVec S3300000 32) = val_main_v6 (F := Ideal) (edges m c) :=
  (W6_of_ne m ρ c main_v6 (by decide)).trans ((keep_at_W5 m ρ c main_v6 (by simp)).trans (dst_at_W4 m ρ c))
theorem norm_at_W6 (c : Dev nD) : (W6 m ρ c (Proc.devRef .tc main_v29) : FVec Ideal S3300000 .f32) = val_main_v29 (F := Ideal) (edges m c) :=
  (W6_of_ne m ρ c main_v29 (by decide)).trans ((keep_at_W5 m ρ c main_v29 (by simp)).trans (norm_at_W4 m ρ c))
theorem arg_at_W6 (c : Dev nD) (b : Ref sig .tc) (hb : b = main_arg2 ∨ b = main_arg7 ∨ b = main_arg8 ∨ b = main_arg9) :
    W6 m ρ c (Proc.devRef .tc b) = m ((c : Thread nD τ).loc b) := by
  rcases hb with rfl | rfl | rfl | rfl
  · exact (W6_of_ne m ρ c _ (by decide)).trans (arg_at_W5 m ρ c _ (by simp))
  · exact (W6_of_ne m ρ c _ (by decide)).trans (arg_at_W5 m ρ c _ (by simp))
  · exact (W6_of_ne m ρ c _ (by decide)).trans (arg_at_W5 m ρ c _ (by simp))
  · exact (W6_of_ne m ρ c _ (by decide)).trans (arg_at_W5 m ρ c _ (by simp))

set_option maxHeartbeats 4000000 in
/-- The second aggregation, of launch 1's rows, over the same edges. -/
theorem agg2_at_W7 (c : Dev nD) : (W7 m ρ c (Proc.devRef .tc main_v59) : FVec Ideal S100000x16 .f32)
    = aggregate (edges m c) (W6 m ρ c (Proc.devRef .tc main_v46)) := by
  show StableHlo.after hostOps2 (W6 m ρ c) (Proc.devRef .tc main_v59) = _
  after_results
  rw [src_at_W6 m ρ c, dst_at_W6 m ρ c, norm_at_W6 m ρ c]
  rfl

/-- b2 as a [1, 16] row. -/
theorem bias2_at_W7 (c : Dev nD) : (W7 m ρ c (Proc.devRef .tc main_v60) : FVec Ideal S1x16 .f32) = val_main_v70 (F := Ideal) (b2 m c) := by
  show StableHlo.after hostOps2 (W6 m ρ c) (Proc.devRef .tc main_v60) = _
  after_results
  rw [arg_at_W6 m ρ c main_arg7 (by simp)]
  rfl

theorem keep_at_W7 (c : Dev nD) (b : Ref sig .tc) (hb : b = main_arg2 ∨ b = main_arg8 ∨ b = main_arg9) :
    W7 m ρ c (Proc.devRef .tc b) = W6 m ρ c (Proc.devRef .tc b) := by
  rcases hb with rfl | rfl | rfl <;>
  · show StableHlo.after hostOps2 (W6 m ρ c) (Proc.devRef .tc _) = _
    unwritten hostOps2

/-! ## Launch 2, the pooling, launch 3 -/

/-- Launch 2 leaves relu(agg2 + b2). -/
theorem h2_at_W8 (c : Dev nD) : (W8 m ρ c (Proc.devRef .tc main_v61) : FVec Ideal S100000x16 .f32)
    = reluBias (aggregate (edges m c) (reluLinear (firstAgg m c) (val_main_v52 (F := Ideal) (b1 m c)) (w2 m c))) (val_main_v70 (F := Ideal) (b2 m c)) := by
  refine (W8_arr m ρ c 2).trans ?_
  refine (region2_value (V7 m ρ) c).trans ?_
  show reluBias (W7 m ρ c (Proc.devRef .tc main_v59)) (W7 m ρ c (Proc.devRef .tc main_v60)) = _
  rw [agg2_at_W7, hw2_at_W6, bias2_at_W7]

theorem arg_at_W8 (c : Dev nD) (b : Ref sig .tc) (hb : b = main_arg2 ∨ b = main_arg8 ∨ b = main_arg9) :
    W8 m ρ c (Proc.devRef .tc b) = m ((c : Thread nD τ).loc b) := by
  rcases hb with rfl | rfl | rfl
  · exact (W8_of_ne m ρ c _ (by decide)).trans ((keep_at_W7 m ρ c _ (by simp)).trans (arg_at_W6 m ρ c _ (by simp)))
  · exact (W8_of_ne m ρ c _ (by decide)).trans ((keep_at_W7 m ρ c _ (by simp)).trans (arg_at_W6 m ρ c _ (by simp)))
  · exact (W8_of_ne m ρ c _ (by decide)).trans ((keep_at_W7 m ρ c _ (by simp)).trans (arg_at_W6 m ρ c _ (by simp)))

set_option maxHeartbeats 4000000 in
/-- Each graph's mean of launch 2's rows. -/
theorem pool_at_W9 (c : Dev nD) : (W9 m ρ c (Proc.devRef .tc main_v73) : FVec Ideal S512x16 .f32)
    = meanPool (graphs m c) (W8 m ρ c (Proc.devRef .tc main_v61)) := by
  show StableHlo.after hostOps3 (W8 m ρ c) (Proc.devRef .tc main_v73) = _
  after_results
  rw [arg_at_W8 m ρ c main_arg2 (by simp)]
  rfl

/-- bc as a [1, 10] row. -/
theorem bias3_at_W9 (c : Dev nD) : (W9 m ρ c (Proc.devRef .tc main_v74) : FVec Ideal S1x10 .f32) = val_main_v87 (F := Ideal) (bc m c) := by
  show StableHlo.after hostOps3 (W8 m ρ c) (Proc.devRef .tc main_v74) = _
  after_results
  rw [arg_at_W8 m ρ c main_arg9 (by simp)]
  rfl

theorem wc_at_W9 (c : Dev nD) : W9 m ρ c (Proc.devRef .tc main_arg8) = m ((c : Thread nD τ).loc main_arg8) := by
  refine Eq.trans ?_ (arg_at_W8 m ρ c main_arg8 (by simp))
  show StableHlo.after hostOps3 (W8 m ρ c) (Proc.devRef .tc main_arg8) = _
  unwritten hostOps3

/-- The logits as the kernel program computes them: the stages composed, the first layer's rows picked from the
    table times W1 by the one-hot product. -/
def logits (c : Dev nD) : FVec Ideal S512x10 .f32 :=
  classify (meanPool (graphs m c) (reluBias (aggregate (edges m c) (reluLinear (firstAgg m c)
    (val_main_v52 (F := Ideal) (b1 m c)) (w2 m c))) (val_main_v70 (F := Ideal) (b2 m c)))) (wc m c) (val_main_v87 (F := Ideal) (bc m c))

/-- THE KERNEL PROGRAM'S RESULT: launch 3 leaves pooled · Wc + bc in the result buffer, the pooled rows being the
    mean over each graph of the second layer's features. -/
theorem kernel_value (c : Dev nD) : (W10 m ρ c (Proc.devRef .tc main_v75) : FVec Ideal S512x10 .f32) = logits m c := by
  unfold logits
  refine (W10_arr m ρ c 3).trans ?_
  refine (region3_value (V9 m ρ) c).trans ?_
  show classify (W9 m ρ c (Proc.devRef .tc main_v73)) (W9 m ρ c (Proc.devRef .tc main_arg8)) (W9 m ρ c (Proc.devRef .tc main_v74)) = _
  rw [pool_at_W9, h2_at_W8, bias3_at_W9, wc_at_W9]

end Cert.Gcn

end
-- ==== Proof.LibRowGather.lean ====
/-
  A row gather read at an index. `table[idx]` over a rank-2 table [N, D] at a vector of n row numbers prints as a
  `stablehlo.gather` whose start indices are the [n, 1] column of row numbers, whose operand axis 0 is collapsed and
  start-indexed, whose operand axis 1 is the one offset axis, and whose slices are whole rows [1, D]. Result element (p, q)
  is the table at (row, q), the row being position p's start index read as a signed integer and clamped into [0, N − 1].
-/
import Idealize.ShloMosaic.PureOps.ShapeOps
import Idealize.ShloMosaic.Lib.ValueIdx

namespace Idealize.ShloMosaic.RowGather

open Idealize.ShloMosaic Idealize.ShloMosaic.ValueIdx

/-- A rank-2 index read on an axis whose number is 0 is its first coordinate. -/
theorem ix2_val_zero {n0 n1 : Nat} (a : Fin n0) (b : Fin n1) (i : Fin 2) (hi : i.val = 0) : (ix2 a b i).val = a.val := by
  match i, hi with
  | ⟨0, _⟩, _ => rfl
/-- … and on an axis whose number is 1, its second. -/
theorem ix2_val_one {n0 n1 : Nat} (a : Fin n0) (b : Fin n1) (i : Fin 2) (hi : i.val = 1) : (ix2 a b i).val = b.val := by
  match i, hi with
  | ⟨1, _⟩, _ => rfl

/-- A start index read as a signed integer and clamped into a table of `N` rows: the row a gather reads. -/
def clampRow (N : Nat) (hN : 0 < N) {w : Nat} (i : BitVec w) : Fin N := ⟨min i.toInt.toNat (N - 1), by omega⟩

/-- THE ROW GATHER AT (p, q): the table at (the clamped start row of position p, q). The five hypotheses are the printed
    dimension numbers, each by `rfl` at a program's record. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (clampRow N hN (idx (ix2 p (0 : Fin 1)))) q) := by
  unfold Host.gather clampRow
  congr 1
  funext a
  apply Fin.ext
  have hb : ∀ a : Fin 2, a ∉ d.operandBatchingDims := fun a => by rw [hob]; exact List.not_mem_nil
  -- the result's batch axes are all axis 0, its offset axes all axis 1
  have hbatch : ∀ a ∈ d.batchDims, a.val = 0 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 1; omega)))
  have hoffs : ∀ a ∈ d.offsetDims, a.val = 1 := by
    intro a ha; rw [hoff] at ha; rw [List.mem_singleton.mp ha]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    have hsi : d.siIdx (ix2 p q) ⟨d.startIndexMap.idxOf (0 : Fin 2), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix2_val_zero p q _ (hbatch _ (List.getElem_mem _))
      | ⟨1, _⟩ =>
        unfold GatherDims.siIdx
        rw [dif_pos (by rw [hivd])]
        show List.idxOf (0 : Fin 2) d.startIndexMap = 0
        rw [hsim]; simp
    rw [hsi]
    show min (idx (ix2 p 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    simp only [Nat.add_zero]
    unfold GatherDims.start
    rw [dif_neg hm, Nat.zero_add]
    unfold GatherDims.offCoord
    rw [dif_pos hk]
    exact ix2_val_one p q _ (hoffs _ (List.getElem_mem _))

end Idealize.ShloMosaic.RowGather
-- ==== Proof.Embed.lean ====
/-
  The first layer's table product against the row lookup. For ids x[n] in [0, 128), element (n, j) of
  onehot(x) · (E · W) is Σ_v [x[n] = v] · (Σ_k E[v, k] · W[k, j]): every term with v ≠ x[n] is 0 · a = 0 and the term
  v = x[n] is 1 · a = a (both laws hold at every extended real, the infinities included), which leaves
  Σ_k E[x[n], k] · W[k, j]. The reference looks the row up: an id that is not negative is not moved up by 128, and the
  row gather clamps it into [0, 127], where it already lies; so the gathered row n is E[x[n], ·], and its product
  with W at (n, j) is the same sum over k.
-/
import proofs.«408285_j86543591014450_2_alg».proof.Proof.Spec
import proofs.«408285_j86543591014450_2_alg».proof.Proof.LibRowGather
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

namespace Embed

/-! ## Words: a 32-bit id that lies in [0, 128) as a signed integer -/

/-- Its unsigned value is below 128. -/
theorem word_toNat_lt (b : BitVec 32) (h0 : 0 ≤ b.toInt) (h1 : b.toInt < 128) : b.toNat < 128 := by
  rw [BitVec.toInt_eq_toNat_cond] at h0 h1
  have hb : b.toNat < 2 ^ 32 := b.isLt
  split at h0 <;> omega

/-- Its signed value, as a natural number, is its unsigned value. -/
theorem word_toInt_toNat (b : BitVec 32) (h0 : 0 ≤ b.toInt) (h1 : b.toInt < 128) : b.toInt.toNat = b.toNat := by
  rw [BitVec.toInt_eq_toNat_cond] at h0 h1 ⊢
  have hb : b.toNat < 2 ^ 32 := b.isLt
  split at h0 <;> omega

/-- It is not below zero: the signed comparison with 0 is the bit 0. -/
theorem word_not_slt (b : BitVec 32) (h0 : 0 ≤ b.toInt) : IntOp.cmpi .slt b 0#32 = 0#1 := by
  show BitVec.ofBool (b.slt 0#32) = 0#1
  have : b.slt 0#32 = false := by
    rw [BitVec.slt]
    simp only [BitVec.toInt_zero, decide_eq_false_iff_not, not_lt]
    exact h0
  rw [this]; rfl

/-- Among the numerals below 128, a word is the numeral of its unsigned value only. -/
theorem word_eq_ofNat_iff (b : BitVec 32) (v : Nat) (hv : v < 128) : b = BitVec.ofNat 32 v ↔ b.toNat = v := by
  constructor
  · intro h
    rw [h, BitVec.toNat_ofNat]
    exact Nat.mod_eq_of_lt (by omega)
  · intro h
    apply BitVec.eq_of_toNat_eq
    rw [BitVec.toNat_ofNat, h]
    exact (Nat.mod_eq_of_lt (by omega)).symm

/-! ## The two products read at an index -/

theorem lhs_kdot_0 (i : Cert.KernelIdeal.S128x16.Idx) (q : Cert.KernelIdeal.dot_S128x16_S16x16_S128x16_1_0_0_1_n_n.contr.Idx) :
    (Cert.KernelIdeal.dot_S128x16_S16x16_S128x16_1_0_0_1_n_n.lhsIdx i q 0).val = (i 0).val := by
  unfold DotDims.lhsIdx
  rw [dif_neg (show ¬(0 : Fin Cert.KernelIdeal.S128x16.rank) ∈ Cert.KernelIdeal.dot_S128x16_S16x16_S128x16_1_0_0_1_n_n.lhsBatch by decide), dif_pos (show (0 : Fin Cert.KernelIdeal.S128x16.rank) ∈ Cert.KernelIdeal.dot_S128x16_S16x16_S128x16_1_0_0_1_n_n.lhsNonContracting by decide)]
  rfl
theorem lhs_kdot_1 (i : Cert.KernelIdeal.S128x16.Idx) (q : Cert.KernelIdeal.dot_S128x16_S16x16_S128x16_1_0_0_1_n_n.contr.Idx) :
    (Cert.KernelIdeal.dot_S128x16_S16x16_S128x16_1_0_0_1_n_n.lhsIdx i q 1).val = (q ⟨0, by decide⟩).val :=
  Cert.KernelIdeal.dot_S128x16_S16x16_S128x16_1_0_0_1_n_n.lhsIdx_val_of_single rfl i q
theorem rhs_kdot_0 (i : Cert.KernelIdeal.S128x16.Idx) (q : Cert.KernelIdeal.dot_S128x16_S16x16_S128x16_1_0_0_1_n_n.contr.Idx) :
    (Cert.KernelIdeal.dot_S128x16_S16x16_S128x16_1_0_0_1_n_n.rhsIdx i q 0).val = (q ⟨0, by decide⟩).val :=
  Cert.KernelIdeal.dot_S128x16_S16x16_S128x16_1_0_0_1_n_n.rhsIdx_val_of_single rfl i q
theorem rhs_kdot_1 (i : Cert.KernelIdeal.S128x16.Idx) (q : Cert.KernelIdeal.dot_S128x16_S16x16_S128x16_1_0_0_1_n_n.contr.Idx) :
    (Cert.KernelIdeal.dot_S128x16_S16x16_S128x16_1_0_0_1_n_n.rhsIdx i q 1).val = (i 1).val := by
  unfold DotDims.rhsIdx
  rw [dif_neg (show ¬(1 : Fin Cert.KernelIdeal.S16x16.rank) ∈ Cert.KernelIdeal.dot_S128x16_S16x16_S128x16_1_0_0_1_n_n.rhsBatch by decide), dif_pos (show (1 : Fin Cert.KernelIdeal.S16x16.rank) ∈ Cert.KernelIdeal.dot_S128x16_S16x16_S128x16_1_0_0_1_n_n.rhsNonContracting by decide)]
  rfl
/-- The product at (p, q): the sum over k of the left operand at (p, k) times the right at (k, q). -/
theorem kdot_apply (A : FVec Ideal Cert.KernelIdeal.S128x16 .f32) (B : FVec Ideal Cert.KernelIdeal.S16x16 .f32) (p : Fin 128) (q : Fin 16) :
    Host.dotGeneral Cert.KernelIdeal.dot_S128x16_S16x16_S128x16_1_0_0_1_n_n none A B (ix2 p q) = ∑ k : Fin 16, A (ix2 p k) * B (ix2 k q) := by
  simp only [Host.dotGeneral]
  rw [Ideal.dotGeneral_apply, ← Equiv.sum_comp (ValueIdx.contrEquiv1 Cert.KernelIdeal.dot_S128x16_S16x16_S128x16_1_0_0_1_n_n 16 rfl rfl).symm]
  refine Finset.sum_congr rfl fun k _ => ?_
  have hk := ValueIdx.contrEquiv1_symm_val Cert.KernelIdeal.dot_S128x16_S16x16_S128x16_1_0_0_1_n_n 16 rfl rfl k
  have el : Cert.KernelIdeal.dot_S128x16_S16x16_S128x16_1_0_0_1_n_n.lhsIdx (ix2 p q) ((ValueIdx.contrEquiv1 Cert.KernelIdeal.dot_S128x16_S16x16_S128x16_1_0_0_1_n_n 16 rfl rfl).symm k) = ix2 p k := funext fun a => Fin.ext (by
    match a with
    | ⟨0, _⟩ => exact lhs_kdot_0 _ _
    | ⟨1, _⟩ => exact (lhs_kdot_1 _ _).trans hk)
  have er : Cert.KernelIdeal.dot_S128x16_S16x16_S128x16_1_0_0_1_n_n.rhsIdx (ix2 p q) ((ValueIdx.contrEquiv1 Cert.KernelIdeal.dot_S128x16_S16x16_S128x16_1_0_0_1_n_n 16 rfl rfl).symm k) = ix2 k q := funext fun a => Fin.ext (by
    match a with
    | ⟨0, _⟩ => exact (rhs_kdot_0 _ _).trans hk
    | ⟨1, _⟩ => exact rhs_kdot_1 _ _)
  rw [el, er]

theorem lhs_rdot_0 (i : Cert.ReferenceIdeal.S100000x16.Idx) (q : Cert.ReferenceIdeal.dot_S100000x16_S16x16_S100000x16_1_0_0_1_n_n.contr.Idx) :
    (Cert.ReferenceIdeal.dot_S100000x16_S16x16_S100000x16_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x16_S100000x16_1_0_0_1_n_n.lhsBatch by decide), dif_pos (show (0 : Fin Cert.ReferenceIdeal.S100000x16.rank) ∈ Cert.ReferenceIdeal.dot_S100000x16_S16x16_S100000x16_1_0_0_1_n_n.lhsNonContracting by decide)]
  rfl
theorem lhs_rdot_1 (i : Cert.ReferenceIdeal.S100000x16.Idx) (q : Cert.ReferenceIdeal.dot_S100000x16_S16x16_S100000x16_1_0_0_1_n_n.contr.Idx) :
    (Cert.ReferenceIdeal.dot_S100000x16_S16x16_S100000x16_1_0_0_1_n_n.lhsIdx i q 1).val = (q ⟨0, by decide⟩).val :=
  Cert.ReferenceIdeal.dot_S100000x16_S16x16_S100000x16_1_0_0_1_n_n.lhsIdx_val_of_single rfl i q
theorem rhs_rdot_0 (i : Cert.ReferenceIdeal.S100000x16.Idx) (q : Cert.ReferenceIdeal.dot_S100000x16_S16x16_S100000x16_1_0_0_1_n_n.contr.Idx) :
    (Cert.ReferenceIdeal.dot_S100000x16_S16x16_S100000x16_1_0_0_1_n_n.rhsIdx i q 0).val = (q ⟨0, by decide⟩).val :=
  Cert.ReferenceIdeal.dot_S100000x16_S16x16_S100000x16_1_0_0_1_n_n.rhsIdx_val_of_single rfl i q
theorem rhs_rdot_1 (i : Cert.ReferenceIdeal.S100000x16.Idx) (q : Cert.ReferenceIdeal.dot_S100000x16_S16x16_S100000x16_1_0_0_1_n_n.contr.Idx) :
    (Cert.ReferenceIdeal.dot_S100000x16_S16x16_S100000x16_1_0_0_1_n_n.rhsIdx i q 1).val = (i 1).val := by
  unfold DotDims.rhsIdx
  rw [dif_neg (show ¬(1 : Fin Cert.ReferenceIdeal.S16x16.rank) ∈ Cert.ReferenceIdeal.dot_S100000x16_S16x16_S100000x16_1_0_0_1_n_n.rhsBatch by decide), dif_pos (show (1 : Fin Cert.ReferenceIdeal.S16x16.rank) ∈ Cert.ReferenceIdeal.dot_S100000x16_S16x16_S100000x16_1_0_0_1_n_n.rhsNonContracting by decide)]
  rfl
/-- The product at (p, q): the sum over k of the left operand at (p, k) times the right at (k, q). -/
theorem rdot_apply (A : FVec Ideal Cert.ReferenceIdeal.S100000x16 .f32) (B : FVec Ideal Cert.ReferenceIdeal.S16x16 .f32) (p : Fin 100000) (q : Fin 16) :
    Host.dotGeneral Cert.ReferenceIdeal.dot_S100000x16_S16x16_S100000x16_1_0_0_1_n_n none A B (ix2 p q) = ∑ k : Fin 16, A (ix2 p k) * B (ix2 k q) := by
  simp only [Host.dotGeneral]
  rw [Ideal.dotGeneral_apply, ← Equiv.sum_comp (ValueIdx.contrEquiv1 Cert.ReferenceIdeal.dot_S100000x16_S16x16_S100000x16_1_0_0_1_n_n 16 rfl rfl).symm]
  refine Finset.sum_congr rfl fun k _ => ?_
  have hk := ValueIdx.contrEquiv1_symm_val Cert.ReferenceIdeal.dot_S100000x16_S16x16_S100000x16_1_0_0_1_n_n 16 rfl rfl k
  have el : Cert.ReferenceIdeal.dot_S100000x16_S16x16_S100000x16_1_0_0_1_n_n.lhsIdx (ix2 p q) ((ValueIdx.contrEquiv1 Cert.ReferenceIdeal.dot_S100000x16_S16x16_S100000x16_1_0_0_1_n_n 16 rfl rfl).symm k) = ix2 p k := funext fun a => Fin.ext (by
    match a with
    | ⟨0, _⟩ => exact lhs_rdot_0 _ _
    | ⟨1, _⟩ => exact (lhs_rdot_1 _ _).trans hk)
  have er : Cert.ReferenceIdeal.dot_S100000x16_S16x16_S100000x16_1_0_0_1_n_n.rhsIdx (ix2 p q) ((ValueIdx.contrEquiv1 Cert.ReferenceIdeal.dot_S100000x16_S16x16_S100000x16_1_0_0_1_n_n 16 rfl rfl).symm k) = ix2 k q := funext fun a => Fin.ext (by
    match a with
    | ⟨0, _⟩ => exact (rhs_rdot_0 _ _).trans hk
    | ⟨1, _⟩ => exact rhs_rdot_1 _ _)
  rw [el, er]

/-! ## The start indices of the lookup -/

section StartIndex
open Cert.ReferenceIdeal Cert.ReferenceIdeal.Facts₀

/-- The start index of node p: with no id below zero none is moved up by 128, and it is the id x[p] itself. -/
theorem startIdx_apply (x : IVec S100000x1 32) (hx : InVocab x) (p : Fin 100000) :
    broadcastInDim S100000x1 ![0] bcast_S100000_S100000x1_0
        (select (cmpi .slt (shapeCast _ x shapeCasts_S100000x1_S100000) (broadcastInDim S100000 ![] bcast_S_S100000 (constantI S_ 32 0#32)))
          (addi (shapeCast _ x shapeCasts_S100000x1_S100000) (broadcastInDim S100000 ![] bcast_S_S100000 (constantI S_ 32 128#32)))
          (shapeCast _ x shapeCasts_S100000x1_S100000)) (ix2 p (0 : Fin 1))
      = x (ix2 p (0 : Fin 1)) := by
  -- the [100000] vector read at p, then broadcast back to a column
  refine (broadcastInDim_apply _ bcast_S100000_S100000x1_0 _ (ix2 p (0 : Fin 1)) (ix1 p) (fun a => match a with
    | ⟨0, _⟩ => by show p.val = if (100000 : Nat) = 1 then 0 else p.val; rw [if_neg (by decide)])).trans ?_
  -- the column x flattened to [100000], read at p
  have hc : shapeCast S100000 x shapeCasts_S100000x1_S100000 (ix1 p) = x (ix2 p (0 : Fin 1)) :=
    shapeCast_apply x shapeCasts_S100000x1_S100000 (ix1 p) (ix2 p (0 : Fin 1))
      (by rewrite [Shape.rowMajor_val_two, Shape.rowMajor_val_one]; show p.val * 1 + 0 = p.val; omega)
  show Scalar.select (IntOp.cmpi .slt (shapeCast S100000 x shapeCasts_S100000x1_S100000 (ix1 p)) 0#32)
      (IntOp.addi (shapeCast S100000 x shapeCasts_S100000x1_S100000 (ix1 p)) 128#32)
      (shapeCast S100000 x shapeCasts_S100000x1_S100000 (ix1 p)) = _
  rw [hc, word_not_slt _ (hx p).1, select_zero]

end StartIndex

end Embed

/-! ## The one-hot product is the lookup -/

theorem embed_eq (x : IVec Cert.ReferenceIdeal.S100000x1 32) (E : FVec Ideal Cert.ReferenceIdeal.S128x16 .f32)
    (W : FVec Ideal Cert.ReferenceIdeal.S16x16 .f32) (hx : InVocab x) :
    embedRows x (Host.dotGeneral Cert.KernelIdeal.dot_S128x16_S16x16_S128x16_1_0_0_1_n_n none E W) = embedLookup x E W := by
  funext i
  obtain ⟨p, q, rfl⟩ : ∃ (p : Fin 100000) (q : Fin 16), i = ix2 p q := ⟨i 0, i 1, eq_ix2 i⟩
  have hlt : (x (ix2 p (0 : Fin 1))).toNat < 128 := Embed.word_toNat_lt _ (hx p).1 (hx p).2
  -- the lookup at (p, q): Σ_k E(x[p], k) · W(k, q)
  have hR : embedLookup x E W (ix2 p q)
      = ∑ k : Fin 16, E (ix2 (⟨(x (ix2 p (0 : Fin 1))).toNat, hlt⟩ : Fin 128) k) * W (ix2 k q) := by
    unfold embedLookup
    rw [Embed.rdot_apply]
    refine Finset.sum_congr rfl fun k _ => ?_
    rw [RowGather.gather_rows_apply _ rfl rfl rfl rfl rfl E _ p k (by decide : 0 < 128), Embed.startIdx_apply x hx p]
    have hcl : RowGather.clampRow 128 (by decide : 0 < 128) (x (ix2 p (0 : Fin 1)))
        = (⟨(x (ix2 p (0 : Fin 1))).toNat, hlt⟩ : Fin 128) := by
      apply Fin.ext
      show min (x (ix2 p (0 : Fin 1))).toInt.toNat (128 - 1) = (x (ix2 p (0 : Fin 1))).toNat
      rw [Embed.word_toInt_toNat _ (hx p).1 (hx p).2]
      omega
    rw [hcl]
  -- the one-hot product at (p, q): Σ_v [x[p] = v] · Σ_k E(v, k) · W(k, q)
  have hL : embedRows x (Host.dotGeneral Cert.KernelIdeal.dot_S128x16_S16x16_S128x16_1_0_0_1_n_n none E W) (ix2 p q)
      = ∑ v : Fin 128, (if x (ix2 p (0 : Fin 1)) = BitVec.ofNat 32 v.val then (1 : EReal) else 0)
          * ∑ k : Fin 16, E (ix2 v k) * W (ix2 k q) := by
    show ∑ v : Fin 128, (if x (ix2 p (0 : Fin 1)) = BitVec.ofNat 32 v.val then (1 : EReal) else 0)
          * Host.dotGeneral Cert.KernelIdeal.dot_S128x16_S16x16_S128x16_1_0_0_1_n_n none E W (ix2 v q) = _
    refine Finset.sum_congr rfl fun v _ => ?_
    rw [Embed.kdot_apply]
  rw [hL, hR]
  -- only v = x[p] contributes
  rw [Finset.sum_eq_single (⟨(x (ix2 p (0 : Fin 1))).toNat, hlt⟩ : Fin 128)]
  · rw [if_pos ((Embed.word_eq_ofNat_iff _ _ hlt).mpr rfl), one_mul]
  · intro v _ hv
    rw [if_neg (fun h => hv (Fin.ext ((Embed.word_eq_ofNat_iff _ _ v.isLt).mp h).symm)), zero_mul]
  · intro h; exact absurd (Finset.mem_univ _) h

end Cert.Gcn

end
-- ==== Proof.PreRange.lean ====
/-
  The precondition's range clause, read back as a fact about the node ids.

  The precondition is a conjunction of bits: seven "all entries finite" bits for the float inputs, then
  all_n [x[n] < 128] and all_n [0 ≤ x[n]], both signed compares of the [100000, 1] id column against a scalar
  broadcast to every entry. A conjunction of bits is 1 only when each conjunct is 1, and an "all" over the whole
  column is 1 only when the compared bit is 1 at every entry (n, 0). A signed compare bit is 1 exactly when the
  signed values are so ordered, and the scalars 128 and 0 read as themselves, so 0 ≤ x[n] < 128 for every node n.
  The seven finiteness conjuncts are carried as one unopened bit.
-/
import proofs.«408285_j86543591014450_2_alg».proof.Proof.Spec
import proofs.«408285_j86543591014450_2_alg».proof.Pre_finite_inputs
import proofs.«408285_j86543591014450_2_alg».proof.Proof.Gen.Pre_finite_inputs
import Idealize.ShloMosaic.Lib.ReduceAll
import Idealize.ShloMosaic.Lib.StableHlo.Predicate
import Idealize.ShloMosaic.Lib.ValueIdx

noncomputable section

namespace Cert.Gcn

open Idealize.ShloMosaic Idealize.ShloMosaic.ValueIdx

/-- The tail of the precondition: with any bit `c` for the conjuncts before it, if the conjunction of `c`, "every id is
    below 128" and "every id is at least 0" is 1 then every id is in [0, 128). -/
theorem inVocab_of_part2 (a0 : IVec Cert.Pre_finite_inputs.S100000x1 32) (c : IVec Cert.Pre_finite_inputs.S_ 1)
    (h : Cert.Pre_finite_inputs.fn_part2 (F := Ideal) a0 c ValueIdx.ix0 = 1#1) : InVocab a0 := by
  haveI : Subsingleton Cert.Pre_finite_inputs.S_.Idx := ⟨fun a b => funext fun d => d.elim0⟩
  dsimp only [Cert.Pre_finite_inputs.fn_part2] at h
  obtain ⟨h12, hge⟩ := IntOp.andi_eq_one.1 h
  obtain ⟨-, hlt⟩ := IntOp.andi_eq_one.1 h12
  intro n
  have e1 : IntOp.cmpi .slt (a0 (ix2 n (0 : Fin 1))) 128#32 = 1#1 :=
    Host.reduce_andi_all _ _ _ _ _ hlt (ix2 n (0 : Fin 1))
  have e2 : IntOp.cmpi .sge (a0 (ix2 n (0 : Fin 1))) 0#32 = 1#1 :=
    Host.reduce_andi_all _ _ _ _ _ hge (ix2 n (0 : Fin 1))
  have l := IntOp.cmpi_slt.1 e1
  have g := IntOp.cmpi_sge.1 e2
  have c128 : (128#32 : BitVec 32).toInt = 128 := by decide
  have c0 : (0#32 : BitVec 32).toInt = 0 := by decide
  rw [c128] at l
  rw [c0] at g
  exact ⟨g, l⟩

theorem inVocab_of_pre (a0 : IVec Cert.Pre_finite_inputs.S100000x1 32) (a1 : IVec Cert.Pre_finite_inputs.S2x3200000 32)
    (a2 : IVec Cert.Pre_finite_inputs.S100000 32) (a3 : FVec Ideal Cert.Pre_finite_inputs.S128x16 .f32)
    (a4 : FVec Ideal Cert.Pre_finite_inputs.S16x16 .f32) (a5 : FVec Ideal Cert.Pre_finite_inputs.S16 .f32)
    (a6 : FVec Ideal Cert.Pre_finite_inputs.S16x16 .f32) (a7 : FVec Ideal Cert.Pre_finite_inputs.S16 .f32)
    (a8 : FVec Ideal Cert.Pre_finite_inputs.S16x10 .f32) (a9 : FVec Ideal Cert.Pre_finite_inputs.S10 .f32)
    (h : Cert.Pre_finite_inputs.fn (F := Ideal) a0 a1 a2 a3 a4 a5 a6 a7 a8 a9 = fun _ => 1#1) : InVocab a0 := by
  have h0 := congrFun h ValueIdx.ix0
  dsimp only [Cert.Pre_finite_inputs.fn, Cert.Pre_finite_inputs.fn_part1] at h0
  exact inVocab_of_part2 a0 _ h0

end Cert.Gcn

end
-- ==== Proof.lean ====
/-
  A two-layer graph convolution with mean pooling and a linear classifier: the kernel program against its reference,
  over the extended reals, for node ids inside the embedding table (0 ≤ x[n] < 128).

  The two programs differ in one place only. The reference looks up row x[n] of the embedding table and multiplies by
  W1; the kernel program multiplies the table by W1 first and then picks row x[n] by the product with the one-hot row
  of x[n]. For an id inside the table exactly one weight of that row is 1 and the rest are 0, so the product is the
  looked-up row (`embed_eq`); outside the table the one-hot row is zero while the lookup clamps, which is why the ids'
  range is assumed. Everything else — the edge sources and destinations, the degree normalisation, the two
  aggregations, relu(· + b1) · W2, relu(· + b2), the mean pooling and · Wc + bc — is the same whole-array function on
  both sides (`ref_value`, `kernel_value`), with the matrix products of the launches read as the host's.
  The frames are the generated ones; the idealization rewrote nothing, so `preserves` has nothing to state.
-/
import proofs.«408285_j86543591014450_2_alg».proof.Defs
import proofs.«408285_j86543591014450_2_alg».proof.Proof.Gen.Kernel
import proofs.«408285_j86543591014450_2_alg».proof.Proof.Gen.Kernel.Skeleton
import proofs.«408285_j86543591014450_2_alg».proof.Proof.Gen.Kernel.Launch
import proofs.«408285_j86543591014450_2_alg».proof.Proof.Gen.Kernel.Points
import proofs.«408285_j86543591014450_2_alg».proof.Proof.Gen.Kernel.Frame
import proofs.«408285_j86543591014450_2_alg».proof.Proof.Gen.KernelIdeal
import proofs.«408285_j86543591014450_2_alg».proof.Proof.Gen.KernelIdeal.Skeleton
import proofs.«408285_j86543591014450_2_alg».proof.Proof.Gen.KernelIdeal.Launch
import proofs.«408285_j86543591014450_2_alg».proof.Proof.Gen.KernelIdeal.Points
import proofs.«408285_j86543591014450_2_alg».proof.Proof.Gen.KernelIdeal.Frame
import proofs.«408285_j86543591014450_2_alg».proof.Proof.Gen.ReferenceIdeal
import proofs.«408285_j86543591014450_2_alg».proof.Proof.Gen.Pre_finite_inputs
import proofs.«408285_j86543591014450_2_alg».proof.Proof.KRun
import proofs.«408285_j86543591014450_2_alg».proof.Proof.RefRun
import proofs.«408285_j86543591014450_2_alg».proof.Proof.RefRead
import proofs.«408285_j86543591014450_2_alg».proof.Proof.Layers
import proofs.«408285_j86543591014450_2_alg».proof.Proof.KValue
import proofs.«408285_j86543591014450_2_alg».proof.Proof.Embed
import proofs.«408285_j86543591014450_2_alg».proof.Proof.PreRange
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the logits of the launch-time arguments: the kernel program's by its boundary contents, the
    reference's by its stages, the two first layers joined by the one-hot product being the lookup on ids in range. -/
theorem algebraic : Cert.algebraic_KernelIdeal_ReferenceIdeal := by
  intro m ρ m' ρ' hpre hagree
  refine ⟨fun c => Cert.Gcn.logits m c, ?_, ?_⟩
  · exact (θ_run Cert.KernelIdeal.defs _ _).mono
      (fun r h c => ⟨(h c).1.trans (Cert.Gcn.kernel_value m ρ c), (h c).2⟩) (Cert.KernelIdeal.Gen.run_result m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.ReadP.val_main_v89_eq, e0, e1, e2, e3, e4, e5, e6, e7, e8, e9, Cert.Gcn.ref_value]
    have hx := Cert.Gcn.inVocab_of_pre _ _ _ _ _ _ _ _ _ _ (hpre c)
    rw [← Cert.Gcn.embed_eq _ _ _ hx]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
